-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S256x47 : Shape := ⟨2, ![256, 47]⟩
abbrev S47 : Shape := ⟨1, ![47]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg4 : FVec F S47 .f32) (main_v13 : IVec S_ 1) (main_v16 : IVec S256x47 1) : IVec S_ 1 :=
  let main_c_5 : IVec S_ 1 := constantI S_ 1 1#1
  let main_v17 : IVec S_ 1 := (fun x v => Host.reduce IntOp.andi x v reducesTo_S256x47_S_d0_1 h_S_) main_v16 main_c_5
  let main_v18 : IVec S_ 1 := andi main_v13 main_v17
  let main_v19 : FVec F S47 .f32 := Host.absf main_arg4
  let main_cst_6 : FVec F S_ .f32 := constant S_ .f32 0x7F800000#32
  let main_v20 : FVec F S47 .f32 := broadcastInDim S47 ![] bcast_S_S47 main_cst_6
  let main_v21 : IVec S47 1 := cmpf .olt main_v19 main_v20
  let main_c_7 : IVec S_ 1 := constantI S_ 1 1#1
  let main_v22 : IVec S_ 1 := (fun x v => Host.reduce IntOp.andi x v reducesTo_S47_S_d0 h_S_) main_v21 main_c_7
  let main_v23 : IVec S_ 1 := andi main_v18 main_v22
  main_v23

def fn {F : FTy → Type} [FloatOps F] (main_arg0 : FVec F S50000x256 .f32) (main_arg1 : FVec F S256x256 .f32) (main_arg2 : FVec F S256 .f32) (main_arg3 : FVec F S256x47 .f32) (main_arg4 : FVec F S47 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x47 .f32 := Host.absf main_arg3
  let main_cst_4 : FVec F S_ .f32 := constant S_ .f32 0x7F800000#32
  let main_v15 : FVec F S256x47 .f32 := broadcastInDim S256x47 ![] bcast_S_S256x47 main_cst_4
  let main_v16 : IVec S256x47 1 := cmpf .olt main_v14 main_v15
  fn_part1 (F := F) main_arg4 main_v13 main_v16
-- ==== Kernel.lean ====
abbrev S50000x256 : Shape := ⟨2, ![50000, 256]⟩
abbrev S256x256 : Shape := ⟨2, ![256, 256]⟩
abbrev S256 : Shape := ⟨1, ![256]⟩
abbrev S256x47 : Shape := ⟨2, ![256, 47]⟩
abbrev S47 : Shape := ⟨1, ![47]⟩
abbrev S1x256 : Shape := ⟨2, ![1, 256]⟩
abbrev S47x256 : Shape := ⟨2, ![47, 256]⟩
abbrev S47x1 : Shape := ⟨2, ![47, 1]⟩
abbrev S47x50000 : Shape := ⟨2, ![47, 50000]⟩
abbrev S13952x256 : Shape := ⟨2, ![13952, 256]⟩
abbrev S47x13952 : Shape := ⟨2, ![47, 13952]⟩
abbrev S50000x47 : Shape := ⟨2, ![50000, 47]⟩

abbrev nBuf : Space → Nat
  | .hbm => 10
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x47, .f32⟩
  | .hbm, ⟨4, _⟩ => ⟨S47, .f32⟩
  | .hbm, ⟨5, _⟩ => ⟨S1x256, .f32⟩
  | .hbm, ⟨6, _⟩ => ⟨S47x256, .f32⟩
  | .hbm, ⟨7, _⟩ => ⟨S47x1, .f32⟩
  | .hbm, ⟨8, _⟩ => ⟨S47x50000, .f32⟩
  | .hbm, ⟨9, _⟩ => ⟨S50000x47, .f32⟩
  | .local _ .vmem, ⟨0, _⟩ => ⟨S13952x256, .f32⟩
  | .local _ .vmem, ⟨1, _⟩ => ⟨S13952x256, .f32⟩
  | .local _ .vmem, ⟨2, _⟩ => ⟨S256x256, .f32⟩
  | .local _ .vmem, ⟨3, _⟩ => ⟨S1x256, .f32⟩
  | .local _ .vmem, ⟨4, _⟩ => ⟨S47x256, .f32⟩
  | .local _ .vmem, ⟨5, _⟩ => ⟨S47x1, .f32⟩
  | .local _ .vmem, ⟨6, _⟩ => ⟨S47x13952, .f32⟩
  | .local _ .vmem, ⟨7, _⟩ => ⟨S47x13952, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c3_i32 : BitVec 32 := 3#32
  let v0 : BitVec 32 := Scalar.addi arg0 c3_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c3_i32 : BitVec 32 := 3#32
  let v0 : BitVec 32 := Scalar.addi arg0 c3_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

abbrev stage0_0 : Fin 2 → Memref sig .tc .vmem S13952x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S47x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S47x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S47x13952 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S1x256 : S256.ShapeCasts S1x256
  transposes_S256x47_S47x256_1_0 : S256x47.Transposes [1, 0] S47x256
  shapeCasts_S47_S47x1 : S47.ShapeCasts S47x1
  inb_S13952x256_S13952x256_0_0 : ∀ a, (![0, 0] : Fin 2 → Nat) a + S13952x256.size a ≤ S13952x256.size a
  h_S13952x256 : 0 < S13952x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S13952x256 : S1x256.Broadcasts S13952x256
  inb_S47x256_S47x256_0_0 : ∀ a, (![0, 0] : Fin 2 → Nat) a + S47x256.size a ≤ S47x256.size a
  h_S47x256 : 0 < S47x256.numel
  shapeCasts_S47x256_S47x256 : S47x256.ShapeCasts S47x256
  inb_S47x1_S47x1_0_0 : ∀ a, (![0, 0] : Fin 2 → Nat) a + S47x1.size a ≤ S47x1.size a
  h_S47x1 : 0 < S47x1.numel
  shapeCasts_S47x1_S47x1 : S47x1.ShapeCasts S47x1
  broadcasts_S47x1_S47x13952 : S47x1.Broadcasts S47x13952
  inb_S47x13952_S47x13952_0_0 : ∀ a, (![0, 0] : Fin 2 → Nat) a + S47x13952.size a ≤ S47x13952.size a
  h_S47x13952 : 0 < S47x13952.numel
  transposes_S47x50000_S50000x47_1_0 : S47x50000.Transposes [1, 0] S50000x47
  dot_S13952x256_S256x256_S13952x256_1_0_0_1_n_n_wf : DotDims.WF S13952x256 S256x256 S13952x256 [1] [0] [0] [1] [] []
  dot_S47x256_S13952x256_S47x13952_1_1_0_0_n_n_wf : DotDims.WF S47x256 S13952x256 S47x13952 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S13952x256.size a < S50000x256.size a
  hwx0_0 : ∀ i : grid0.Coords, EltTy.bits .f32 = 32 ∨ (Rect.unit (s := S50000x256) (fun a => cc0_transform_0 i a * S13952x256.size a) (fun a => (Pipeline.Clip.of (cc0_transform_0 i a) (S13952x256.size a) (S50000x256.size a)).extent (S13952x256.size a)) fun a => Pipeline.Clip.inb (Pipeline.Clip.ok_of (hstart0_0 i a))).WholeWords (EltTy.packing .f32)
  hwxs0_0 : ∀ i : grid0.Coords, EltTy.bits .f32 = 32 ∨ (Rect.unit (s := S13952x256) (fun _ => 0) (fun a => (Pipeline.Clip.of (cc0_transform_0 i a) (S13952x256.size a) (S50000x256.size a)).extent (S13952x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S47x256.size a ≤ S47x256.size a
  hwx0_3 : ∀ i : grid0.Coords, EltTy.bits .f32 = 32 ∨ (Rect.block (s := S47x256) S47x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S47x1.size a ≤ S47x1.size a
  hwx0_4 : ∀ i : grid0.Coords, EltTy.bits .f32 = 32 ∨ (Rect.block (s := S47x1) S47x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S47x13952.size a < S47x50000.size a
  hwx0_5 : ∀ i : grid0.Coords, EltTy.bits .f32 = 32 ∨ (Rect.unit (s := S47x50000) (fun a => cc0_transform_5 i a * S47x13952.size a) (fun a => (Pipeline.Clip.of (cc0_transform_5 i a) (S47x13952.size a) (S47x50000.size a)).extent (S47x13952.size a)) fun a => Pipeline.Clip.inb (Pipeline.Clip.ok_of (hstart0_5 i a))).WholeWords (EltTy.packing .f32)
  hwxs0_5 : ∀ i : grid0.Coords, EltTy.bits .f32 = 32 ∨ (Rect.unit (s := S47x13952) (fun _ => 0) (fun a => (Pipeline.Clip.of (cc0_transform_5 i a) (S47x13952.size a) (S47x50000.size a)).extent (S47x13952.size a)) fun a => (Nat.zero_add _).trans_le (Pipeline.Clip.extent_le (Pipeline.Clip.ok_of (hstart0_5 i a)))).WholeWords (EltTy.packing .f32)

variable [Facts₀]

def dot_S13952x256_S256x256_S13952x256_1_0_0_1_n_n : DotDims S13952x256 S256x256 S13952x256 where
  lhsContracting := [1]
  rhsContracting := [0]
  lhsNonContracting := [0]
  rhsNonContracting := [1]
  lhsBatch := []
  rhsBatch := []
  wf := dot_S13952x256_S256x256_S13952x256_1_0_0_1_n_n_wf
def dot_S47x256_S13952x256_S47x13952_1_1_0_0_n_n : DotDims S47x256 S13952x256 S47x13952 where
  lhsContracting := [1]
  rhsContracting := [1]
  lhsNonContracting := [0]
  rhsNonContracting := [0]
  lhsBatch := []
  rhsBatch := []
  wf := dot_S47x256_S13952x256_S47x13952_1_1_0_0_n_n_wf

abbrev win0_0 : Pipeline.Window sig grid0 :=
  Pipeline.Window.ofSpecClip (Memref.whole main_arg0) S13952x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S47x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S47x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v3) S47x13952.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S256x47 : Shape := ⟨2, ![256, 47]⟩
abbrev S47 : Shape := ⟨1, ![47]⟩
abbrev S1x256 : Shape := ⟨2, ![1, 256]⟩
abbrev S_ : Shape := ⟨0, ![]⟩
abbrev S50000x47 : Shape := ⟨2, ![50000, 47]⟩
abbrev S1x47 : Shape := ⟨2, ![1, 47]⟩

abbrev nBuf : Space → Nat
  | .hbm => 16
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x47, .f32⟩
  | .hbm, ⟨4, _⟩ => ⟨S47, .f32⟩
  | .hbm, ⟨5, _⟩ => ⟨S50000x256, .f32⟩
  | .hbm, ⟨6, _⟩ => ⟨S1x256, .f32⟩
  | .hbm, ⟨7, _⟩ => ⟨S50000x256, .f32⟩
  | .hbm, ⟨8, _⟩ => ⟨S50000x256, .f32⟩
  | .hbm, ⟨9, _⟩ => ⟨S_, .f32⟩
  | .hbm, ⟨10, _⟩ => ⟨S50000x256, .f32⟩
  | .hbm, ⟨11, _⟩ => ⟨S50000x256, .f32⟩
  | .hbm, ⟨12, _⟩ => ⟨S50000x47, .f32⟩
  | .hbm, ⟨13, _⟩ => ⟨S1x47, .f32⟩
  | .hbm, ⟨14, _⟩ => ⟨S50000x47, .f32⟩
  | .hbm, ⟨15, _⟩ => ⟨S50000x47, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  dot_S50000x256_S256x256_S50000x256_1_0_0_1_n_n_wf : DotDims.WF S50000x256 S256x256 S50000x256 [1] [0] [0] [1] [] []
  dot_S50000x256_S256x47_S50000x47_1_0_0_1_n_n_wf : DotDims.WF S50000x256 S256x47 S50000x47 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x47_S50000x47_1_0_0_1_n_n : DotDims S50000x256 S256x47 S50000x47 where
  lhsContracting := [1]
  rhsContracting := [0]
  lhsNonContracting := [0]
  rhsNonContracting := [1]
  lhsBatch := []
  rhsBatch := []
  wf := dot_S50000x256_S256x47_S50000x47_1_0_0_1_n_n_wf

class Facts : Prop extends Facts₀ where

variable [Facts]
-- ==== Proof.Spec.lean ====
/-
  The function both programs compute, over the extended reals: a two-layer perceptron. For a row `r` of the
  feature matrix `x`, hidden unit `j` is `max (∑ k, x r k · W1 k j + b1 j) 0`, and class `c`'s logit is
  `∑ j, hidden r j · W2 j c + b2 c`. The kernel holds the second weight matrix transposed and multiplies from the
  left (`∑ j, W2ᵀ c j · hidden r j`); the two forms agree because the product of extended reals commutes. No
  distributivity, cancellation or finiteness is used anywhere.

  The row count `n` is a parameter so that one definition serves a row block of the features and the whole matrix.
-/
import Idealize.ShloMosaic.PureOps.Ideal
import Idealize.ShloMosaic.Lib.ValueIdx

noncomputable section

open scoped BigOperators

namespace Cert.Mlp

open Idealize.ShloMosaic Idealize.ShloMosaic.ValueIdx

/-- Hidden unit `j` of row `r`: the rectified affine image of the row under column `j` of the first weights. -/
def hidden {n : Nat} (x : (⟨2, ![n, 256]⟩ : Shape).Idx → EReal) (w1 : (⟨2, ![256, 256]⟩ : Shape).Idx → EReal)
    (b1 : Fin 256 → EReal) (r : Fin n) (j : Fin 256) : EReal :=
  max ((∑ k : Fin 256, x (ix2 r k) * w1 (ix2 k j)) + b1 j) 0

/-- Class `c`'s logit of row `r`, the second weights stored `256 × 47` and multiplied from the right. -/
def logit {n : Nat} (x : (⟨2, ![n, 256]⟩ : Shape).Idx → EReal) (w1 : (⟨2, ![256, 256]⟩ : Shape).Idx → EReal)
    (b1 : Fin 256 → EReal) (w2 : (⟨2, ![256, 47]⟩ : Shape).Idx → EReal) (b2 : Fin 47 → EReal) (r : Fin n) (c : Fin 47) : EReal :=
  (∑ j : Fin 256, hidden x w1 b1 r j * w2 (ix2 j c)) + b2 c

/-- The same logit with the second weights stored transposed, `47 × 256`, and multiplied from the left. -/
def logitT {n : Nat} (x : (⟨2, ![n, 256]⟩ : Shape).Idx → EReal) (w1 : (⟨2, ![256, 256]⟩ : Shape).Idx → EReal)
    (b1 : Fin 256 → EReal) (w2t : (⟨2, ![47, 256]⟩ : Shape).Idx → EReal) (b2 : Fin 47 → EReal) (r : Fin n) (c : Fin 47) : EReal :=
  (∑ j : Fin 256, w2t (ix2 c j) * hidden x w1 b1 r j) + b2 c

/-- A hidden unit reads its own row only: two feature matrices (of any heights) that agree on a row give that row the
    same hidden units. -/
theorem hidden_congr {n n' : Nat} {x : (⟨2, ![n, 256]⟩ : Shape).Idx → EReal} {x' : (⟨2, ![n', 256]⟩ : Shape).Idx → EReal}
    (w1 : (⟨2, ![256, 256]⟩ : Shape).Idx → EReal) (b1 : Fin 256 → EReal) {r : Fin n} {r' : Fin n'}
    (h : ∀ k : Fin 256, x (ix2 r k) = x' (ix2 r' k)) (j : Fin 256) : hidden x w1 b1 r j = hidden x' w1 b1 r' j := by
  unfold hidden
  rw [Finset.sum_congr rfl fun k _ => by rw [h k]]

/-- So does a logit in the transposed form. -/
theorem logitT_congr {n n' : Nat} {x : (⟨2, ![n, 256]⟩ : Shape).Idx → EReal} {x' : (⟨2, ![n', 256]⟩ : Shape).Idx → EReal}
    (w1 : (⟨2, ![256, 256]⟩ : Shape).Idx → EReal) (b1 : Fin 256 → EReal) (w2t : (⟨2, ![47, 256]⟩ : Shape).Idx → EReal)
    (b2 : Fin 47 → EReal) {r : Fin n} {r' : Fin n'} (h : ∀ k : Fin 256, x (ix2 r k) = x' (ix2 r' k)) (c : Fin 47) :
    logitT x w1 b1 w2t b2 r c = logitT x' w1 b1 w2t b2 r' c := by
  unfold logitT
  rw [Finset.sum_congr rfl fun j _ => by rw [hidden_congr w1 b1 h j]]

/-- The two storage orders of the second weights give one logit: each summand is a product of the same two factors. -/
theorem logitT_eq_logit {n : Nat} (x : (⟨2, ![n, 256]⟩ : Shape).Idx → EReal) (w1 : (⟨2, ![256, 256]⟩ : Shape).Idx → EReal)
    (b1 : Fin 256 → EReal) (w2 : (⟨2, ![256, 47]⟩ : Shape).Idx → EReal) (w2t : (⟨2, ![47, 256]⟩ : Shape).Idx → EReal)
    (b2 : Fin 47 → EReal) (ht : ∀ (c : Fin 47) (j : Fin 256), w2t (ix2 c j) = w2 (ix2 j c)) (r : Fin n) (c : Fin 47) :
    logitT x w1 b1 w2t b2 r c = logit x w1 b1 w2 b2 r c := by
  unfold logitT logit
  rw [Finset.sum_congr rfl fun j _ => by rw [ht c j, mul_comm]]

/-- The whole result: entry (r, c) of the 50000 × 47 array is class `c`'s logit of row `r`, the biases given as the
    rank-one arrays the programs take. -/
def result (x : (⟨2, ![50000, 256]⟩ : Shape).Idx → EReal) (w1 : (⟨2, ![256, 256]⟩ : Shape).Idx → EReal)
    (b1 : (⟨1, ![256]⟩ : Shape).Idx → EReal) (w2 : (⟨2, ![256, 47]⟩ : Shape).Idx → EReal) (b2 : (⟨1, ![47]⟩ : Shape).Idx → EReal) :
    (⟨2, ![50000, 47]⟩ : Shape).Idx → EReal :=
  fun i => logit x w1 (fun j => b1 (ix1 j)) w2 (fun c => b2 (ix1 c)) ⟨(i 0).val, idx2_lt0 i⟩ ⟨(i 1).val, idx2_lt1 i⟩

theorem result_ix2 (x : (⟨2, ![50000, 256]⟩ : Shape).Idx → EReal) (w1 : (⟨2, ![256, 256]⟩ : Shape).Idx → EReal)
    (b1 : (⟨1, ![256]⟩ : Shape).Idx → EReal) (w2 : (⟨2, ![256, 47]⟩ : Shape).Idx → EReal) (b2 : (⟨1, ![47]⟩ : Shape).Idx → EReal)
    (r : Fin 50000) (c : Fin 47) :
    result x w1 b1 w2 b2 (ix2 r c) = logit x w1 (fun j => b1 (ix1 j)) w2 (fun c => b2 (ix1 c)) r c := rfl

end Cert.Mlp

end
-- ==== Proof.RefValue.lean ====
/-
  The reference's result, read one operation at a time at the ideal instance, is the specification: its first
  product is the sum over the feature columns, the first bias broadcasts down the rows, the rectifier is the maximum
  with the zero word, the second product is the sum over the hidden units with the weights on the right, and the
  second bias broadcasts down the rows.
-/
import proofs.«131517_g5540507811991_cont_9to1c4b_52_38_alg».proof.Proof.Gen.ReferenceIdeal.Run
import proofs.«131517_g5540507811991_cont_9to1c4b_52_38_alg».proof.Proof.Gen.ReferenceIdeal.Read
import proofs.«131517_g5540507811991_cont_9to1c4b_52_38_alg».proof.Proof.Spec
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The hidden layer of the reference at row `r`, unit `j`: the first product's sum over the feature columns, plus
    the first bias read at `j` through its two broadcasts, rectified against the zero word. -/
theorem hidden_at (x0 : (⟨S50000x256, .f32⟩ : BufTy).Contents (Elt Ideal)) (x1 : (⟨S256x256, .f32⟩ : BufTy).Contents (Elt Ideal))
    (x2 : (⟨S256, .f32⟩ : BufTy).Contents (Elt Ideal)) (r : Fin 50000) (j : Fin 256) :
    val_main_v5 (F := Ideal) x0 x1 x2 (ix2 r j)
      = max ((∑ k : Fin 256, x0 (ix2 r k) * x1 (ix2 k j)) + x2 (ix1 j)) 0 := by
  have el : ∀ k : Fin 256, lidx_main_v0 (ix2 r j) k = ix2 r k := fun k => funext fun a => Fin.ext (by
    match a with
    | ⟨0, _⟩ => rfl
    | ⟨1, _⟩ => rfl)
  have er : ∀ k : Fin 256, ridx_main_v0 (ix2 r j) k = ix2 k j := fun k => funext fun a => Fin.ext (by
    match a with
    | ⟨0, _⟩ => rfl
    | ⟨1, _⟩ => rfl)
  have eb : idx_main_v1 (idx_main_v2 (ix2 r j)) = ix1 j := funext fun a => Fin.ext (by
    match a with
    | ⟨0, _⟩ => rfl)
  rw [val_main_v5_apply, val_main_v3_apply, val_main_v0_apply, val_main_v2_apply, val_main_v1_apply, val_main_v4_apply,
    val_main_cst_apply, eb, Finset.sum_congr rfl fun k _ => by rw [el k, er k]]
  simp only [Ideal.addf_def, Ideal.maximumf_def, Ideal.ofBits_def, Ideal.ofBits_zero_f32]

theorem ref_eq (x0 : (⟨S50000x256, .f32⟩ : BufTy).Contents (Elt Ideal)) (x1 : (⟨S256x256, .f32⟩ : BufTy).Contents (Elt Ideal))
    (x2 : (⟨S256, .f32⟩ : BufTy).Contents (Elt Ideal)) (x3 : (⟨S256x47, .f32⟩ : BufTy).Contents (Elt Ideal))
    (x4 : (⟨S47, .f32⟩ : BufTy).Contents (Elt Ideal)) :
    val_main_v9 (F := Ideal) x0 x1 x2 x3 x4 = Cert.Mlp.result x0 x1 x2 x3 x4 := by
  funext i
  obtain ⟨r, c, rfl⟩ : ∃ (r : Fin 50000) (c : Fin 47), i = ix2 r c := ⟨i 0, i 1, eq_ix2 i⟩
  have el : ∀ k : Fin 256, lidx_main_v6 (ix2 r c) k = ix2 r k := fun k => funext fun a => Fin.ext (by
    match a with
    | ⟨0, _⟩ => rfl
    | ⟨1, _⟩ => rfl)
  have er : ∀ k : Fin 256, ridx_main_v6 (ix2 r c) k = ix2 k c := fun k => funext fun a => Fin.ext (by
    match a with
    | ⟨0, _⟩ => rfl
    | ⟨1, _⟩ => rfl)
  have eb : idx_main_v7 (idx_main_v8 (ix2 r c)) = ix1 c := funext fun a => Fin.ext (by
    match a with
    | ⟨0, _⟩ => rfl)
  rw [Cert.Mlp.result_ix2]
  unfold Cert.Mlp.logit Cert.Mlp.hidden
  rw [val_main_v9_apply, val_main_v6_apply, val_main_v8_apply, val_main_v7_apply, eb,
    Finset.sum_congr rfl fun k _ => by rw [el k, er k, hidden_at x0 x1 x2 r k]]
  simp only [Ideal.addf_def]

end Cert.ReferenceIdeal.RefValue

end
-- ==== Proof.KDat.lean ====
/-
  The proof data of the one pipeline of `Cert.KernelIdeal`, at any float instance.

  The features' row blocks are 13952 rows high over 50000 rows: the fourth block overhangs the array by 5808 rows, so
  its fetch fills only the staging buffer's first 8144 rows and the rest holds words nothing names. After the body
  a staging buffer of the features holds the block on the rows inside the array; the weights' and biases' buffers
  hold their whole arrays; and the result's buffer holds the body's value of those, which on the columns inside the
  result array (the features' rows inside the array) does not depend on the unnamed rows at the ideal instance.
-/
import proofs.«131517_g5540507811991_cont_9to1c4b_52_38_alg».proof.Proof.Gen.KernelIdeal.Frame
import proofs.«131517_g5540507811991_cont_9to1c4b_52_38_alg».proof.Proof.Gen.KernelIdeal.Skeleton

noncomputable section

namespace Cert.KernelIdeal.Data

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- The features' block at point `t`, its part inside the array (13952 rows at three of the four points, 8144 at the
    point whose block is the last). -/
abbrev xpart (c : Dev nD) (t : Fin cfg0.N) : (win0_0.xblock (grid0.coords t)).Idx → Elt F .f32 := iblk m c 0 t

/-- That part filled out to a whole block with `d` below the array's end. -/
abbrev xfull (c : Dev nD) (t : Fin cfg0.N) (d : S13952x256.Idx → Elt F .f32) : S13952x256.Idx → Elt F .f32 :=
  win0_0.fill (grid0.coords t) d (xpart m c t)

/-- The filler the proof data names: the zero word. -/
abbrev zfill : S13952x256.Idx → Elt F .f32 := fun _ => Scalar.ofBits .f32 0#32

/-- What the body leaves in the result's staging buffer when the features' buffer held the block filled out with `d`. -/
abbrev outOf (c : Dev nD) (t : Fin cfg0.N) (d : S13952x256.Idx → Elt F .f32) : S47x13952.Idx → Elt F .f32 :=
  k0_pay1 (xfull m c t d) (iblk m c 1 t) (iblk m c 2 t) (iblk m c 3 t) (iblk m c 4 t)

/-- The proof data on device `c`'s TensorCore: the arrays as the region finds them; after the body the features'
    buffer at its block (zero below the array's end), the four whole-array operands' buffers at their arrays, the
    result's at the body's value of those; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t zfill
    | ⟨1, _⟩ => iblk m c 1 t
    | ⟨2, _⟩ => iblk m c 2 t
    | ⟨3, _⟩ => iblk m c 3 t
    | ⟨4, _⟩ => iblk m c 4 t
    | ⟨5, _⟩ => outOf m c t zfill
  Φ _ := Pipeline.ΦA spec0 c
  q _ := fullShare
  owed _ := 0

theorem dats_A (c : Dev nD) (w : Fin cfg0.W) : (dats m 0 c).A w = V m c (Pipeline.arrRef spec0 w) := rfl

/-- The features' buffer was just fetched at every point: the block on the rows inside the array, `d` below. -/
theorem before_0 (c : Dev nD) (t : Fin cfg0.N) (d) : (dats m 0 c).before (0 : Fin 6) t d = xfull m c t d := by
  unfold Dat.before; rw [if_pos (fetch0_0 t)]; rfl

/-- The whole-array operands' buffers hold their arrays at every point, fetched there or not. -/
theorem before_1 (c : Dev nD) (t : Fin cfg0.N) (d) : (dats m 0 c).before (1 : Fin 6) t d = iblk m c 1 t :=
  before0_1_of m (dats m 0 c) rfl (fun _ => rfl) t d
theorem before_2 (c : Dev nD) (t : Fin cfg0.N) (d) : (dats m 0 c).before (2 : Fin 6) t d = iblk m c 2 t :=
  before0_2_of m (dats m 0 c) rfl (fun _ => rfl) t d
theorem before_3 (c : Dev nD) (t : Fin cfg0.N) (d) : (dats m 0 c).before (3 : Fin 6) t d = iblk m c 3 t :=
  before0_3_of m (dats m 0 c) rfl (fun _ => rfl) t d
theorem before_4 (c : Dev nD) (t : Fin cfg0.N) (d) : (dats m 0 c).before (4 : Fin 6) t d = iblk m c 4 t :=
  before0_4_of m (dats m 0 c) rfl (fun _ => rfl) t d

/-- The result's window is never fetched, -/
theorem fetch_5 (t : Fin cfg0.N) : (cfg0.win (5 : Fin 6)).fetch t = false := by
  rcases fin_N0 t with rfl | rfl | rfl | rfl <;> decide +kernel

/-- so its buffer holds contents nothing names at every point: at the first, what the launch left; later, what the
    write-back of the point before left. -/
theorem before_5 (c : Dev nD) (t : Fin cfg0.N) (d) : (dats m 0 c).before (5 : Fin 6) t d = d := by
  unfold Dat.before
  rw [if_neg (by rw [fetch_5 t]; exact Bool.false_ne_true)]
  by_cases h0 : t.val = 0
  · rw [if_pos h0]
  · rw [if_neg h0]; exact if_pos (flush0_5 _)

end Cert.KernelIdeal.Data

end
-- ==== Proof.KBody.lean ====
/-
  The kernel body's triple, at any float instance and at whichever staging buffers the pipeline hands it: five whole
  loads (the features' block, the two weight matrices, the two biases), a dead whole load of the result's buffer, and
  one whole store of the body's value of the five loads. The five operand buffers are left as found.

  The triple is proved once, for ANY six memrefs of the kernel's six types (`body_at`), and read at the staging
  buffers: nothing in it depends on which buffer a memref is. A memref owned at contents `X` is its elements held
  at the canonical contents of `X`; a load through the rectangle of the memref's own sizes at zero offsets reads
  `X` back (`readAt_rep_unit_zero`), and an unmasked store through that rectangle writes every element of the
  memref, so the memref ends held at the canonical contents of the payload (`pointsTo_write_unit_zero`).
-/
import proofs.«131517_g5540507811991_cont_9to1c4b_52_38_alg».proof.Proof.Gen.KernelIdeal.Frame
import proofs.«131517_g5540507811991_cont_9to1c4b_52_38_alg».proof.Proof.Gen.KernelIdeal.Skeleton
import Idealize.ShloMosaic.Lib.Pipeline.Kit
import Idealize.ShloMosaic.Lib.Pipeline.TableIdle
import Idealize.ShloMosaic.Lib.Tactic

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

/-- A load of the canonical contents at `x`, through the rectangle of the view's own sizes at zero offsets (however
    the zeros are spelt), reads `x`: that rectangle's index map is the identity. -/
theorem readAt_rep_unit_zero {κ : Kind} {sp : Space} {s : Shape} {e : EltTy} (v : View sig κ sp s e)
    {off : Fin s.rank → Nat} (h : off = fun _ => 0) (inb : ∀ a, off a + s.size a ≤ s.size a) (x : s.Idx → Elt F e) :
    v.readAt (Elt F) (Rect.unit off s.size inb).toLoadRect (v.rep x) = x := by
  subst h
  rw [View.readAt_rep]
  funext y
  show x ((Rect.whole s).emb y) = x y
  rw [Rect.emb_whole_apply]

/-- A memref held by its own elements and stored to, unmasked, through the rectangle of its own sizes at zero offsets
    is held at the canonical contents of the payload: every element of the memref is one the store wrote, so the
    memref reads the payload back, whatever it held before. -/
theorem pointsTo_write_unit_zero (c : Dev nD) {sp : Space} {s : Shape} {e : EltTy} (M : Memref sig .tc sp s e)
    (q : PosShare TreeShare) {off : Fin s.rank → Nat} (h : off = fun _ => 0) (inb : ∀ a, off a + s.size a ≤ s.size a)
    (g : M.view.ty.Contents (Elt F)) (w : s.Idx → Elt F e) :
    (M.view.loc (c : Thread nD τ) ↦[M.view.set]{q} (M.access (Rect.unit off s.size inb)).write (Elt F) g w Finset.univ : sProp 𝕄)
      ⊢ (M.view.loc (c : Thread nD τ) ↦[M.view.set]{q} M.view.rep w) := by
  subst h
  have hr : M.view.read (Elt F) ((M.access (Rect.unit (fun _ => 0) s.size inb)).write (Elt F) g w Finset.univ) = w := by
    funext y
    have e := View.read_slice_write_emb (v := M.view) (Rect.whole s) g w (M := Finset.univ) (x := y) (Finset.mem_univ _)
    rwa [Rect.emb_whole_apply] at e
  have key : (M.view.loc (c : Thread nD τ) ↦[M.view.set]{q} (M.access (Rect.unit (fun _ => 0) s.size inb)).write (Elt F) g w Finset.univ : sProp 𝕄)
      ⊢ owns (c : Thread nD τ) M q (M.view.read (Elt F) ((M.access (Rect.unit (fun _ => 0) s.size inb)).write (Elt F) g w Finset.univ)) :=
    owns_intro (c : Thread nD τ) M q _
  rw [hr, owns_eq_rep] at key
  exact key

/-- The kernel body on ANY six memrefs of its six types, owned at `X0` … `X5`: the five whole loads read `X0` …
    `X4`, the load of the sixth is dead, and the whole store leaves the sixth at the body's value of the five; the
    first five are handed back as found. -/
theorem body_at (c : Dev nD) (E : Set ℕ) (i : grid0.Coords)
    (M0 : Memref sig .tc .vmem S13952x256 .f32) (h0 : M0.IsWhole) (M1 : Memref sig .tc .vmem S256x256 .f32) (h1 : M1.IsWhole)
    (M2 : Memref sig .tc .vmem S1x256 .f32) (h2 : M2.IsWhole) (M3 : Memref sig .tc .vmem S47x256 .f32) (h3 : M3.IsWhole)
    (M4 : Memref sig .tc .vmem S47x1 .f32) (h4 : M4.IsWhole) (M5 : Memref sig .tc .vmem S47x13952 .f32) (h5 : M5.IsWhole)
    (X0 : S13952x256.Idx → Elt F .f32) (X1 : S256x256.Idx → Elt F .f32) (X2 : S1x256.Idx → Elt F .f32)
    (X3 : S47x256.Idx → Elt F .f32) (X4 : S47x1.Idx → Elt F .f32) (X5 : S47x13952.Idx → Elt F .f32) (K : PUnit → sProp 𝕄) :
    iprop((owns (c : Thread nD τ) M0 fullShare X0 ∗ owns (c : Thread nD τ) M1 fullShare X1
            ∗ owns (c : Thread nD τ) M2 fullShare X2 ∗ owns (c : Thread nD τ) M3 fullShare X3
            ∗ owns (c : Thread nD τ) M4 fullShare X4 ∗ owns (c : Thread nD τ) M5 fullShare X5)
          ∗ (iprop(owns (c : Thread nD τ) M0 fullShare X0 ∗ owns (c : Thread nD τ) M1 fullShare X1
                  ∗ owns (c : Thread nD τ) M2 fullShare X2 ∗ owns (c : Thread nD τ) M3 fullShare X3
                  ∗ owns (c : Thread nD τ) M4 fullShare X4
                  ∗ owns (c : Thread nD τ) M5 fullShare (k0_pay1 X0 X1 X2 X3 X4)) -∗ K ⟨⟩))
      ⊢ wp frame (wpE (defs₀ (F := F)) 𝒱₀ c none) E
          (cc0__mlp_kernel i M0 h0 M1 h1 M2 h2 M3 h3 M4 h4 M5 h5) K := by
  -- the kernel's constant-zero indices are the zero offsets
  have hz : (![0, 0] : Fin 2 → Nat) = fun _ => 0 := funext fun a => by fin_cases a <;> rfl
  -- what the five live loads read
  have e0 := readAt_rep_unit_zero (F := F) M0.view hz inb_S13952x256_S13952x256_0_0 X0
  have e1 := readAt_rep_unit_zero (F := F) M1.view hz inb_S256x256_S256x256_0_0 X1
  have e2 := readAt_rep_unit_zero (F := F) M2.view hz inb_S1x256_S1x256_0_0 X2
  have e3 := readAt_rep_unit_zero (F := F) M3.view hz inb_S47x256_S47x256_0_0 X3
  have e4 := readAt_rep_unit_zero (F := F) M4.view hz inb_S47x1_S47x1_0_0 X4
  -- each memref as its elements at canonical contents; the body as its six loads and one store over the payload
  simp only [owns_eq_rep, cc0__mlp_kernel_eq_skeleton]; unfold cc0__mlp_kernel_skel
  simp only [Prog.lift, Prog.bind_op, Prog.bind_ret]
  iintro ⟨⟨H0, H1, H2, H3, H4, H5⟩, Hk⟩
  sl_steps
  iapply Hk
  rw [e0, e1, e2, e3, e4]
  isplitl [H0]; · iexact H0
  isplitl [H1]; · iexact H1
  isplitl [H2]; · iexact H2
  isplitl [H3]; · iexact H3
  isplitl [H4]; · iexact H4
  iapply (pointsTo_write_unit_zero (F := F) c M5 fullShare hz inb_S47x13952_S47x13952_0_0 _ _)
  iexact H5

/-- The body's triple at the staging buffers the pipeline hands it: `body_at` at those six memrefs. -/
theorem sound_body (c : Dev nD) (E : Set ℕ) (i : grid0.Coords) (s0 : Fin 2) (s1 s2 s3 s4 : Fin 1) (s5 : Fin 2)
    (X0 : S13952x256.Idx → Elt F .f32) (X1 : S256x256.Idx → Elt F .f32) (X2 : S1x256.Idx → Elt F .f32)
    (X3 : S47x256.Idx → Elt F .f32) (X4 : S47x1.Idx → Elt F .f32) (X5 : S47x13952.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4 ∗ owns (c : Thread nD τ) (stage0_5 s5) fullShare X5)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare X3
                  ∗ owns (c : Thread nD τ) (stage0_4 s4) fullShare X4
                  ∗ owns (c : Thread nD τ) (stage0_5 s5) fullShare (k0_pay1 X0 X1 X2 X3 X4)) -∗ K ⟨⟩))
      ⊢ wp frame (wpE (defs₀ (F := F)) 𝒱₀ c none) E
          (cc0__mlp_kernel i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5)) K :=
  body_at c E i (stage0_0 s0) (hstage0_0 s0) (stage0_1 s1) (hstage0_1 s1) (stage0_2 s2) (hstage0_2 s2)
    (stage0_3 s3) (hstage0_3 s3) (stage0_4 s4) (hstage0_4 s4) (stage0_5 s5) (hstage0_5 s5) X0 X1 X2 X3 X4 X5 K

end Cert.KernelIdeal.Body

end
-- ==== Proof.KPay.lean ====
/-
  The kernel body's value at one entry, at the ideal instance: entry (c, r) of the 47 × 13952 result block is the
  transposed-form logit of class c at row r of the features' block. The two changes of format are the identity; the
  first matrix product into the zero splat is the plain sum over the 256 feature columns; the bias row broadcasts down
  the rows; the rectifier is the maximum with the zero word; the second product contracts the hidden axis of both its
  operands; and the second bias column broadcasts along the rows.
-/
import proofs.«131517_g5540507811991_cont_9to1c4b_52_38_alg».proof.Proof.Gen.KernelIdeal.Skeleton
import proofs.«131517_g5540507811991_cont_9to1c4b_52_38_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

/-! ## The first product's operand indices, axis by axis -/

theorem lhs_mm1_0 (i : S13952x256.Idx) (q : dot_S13952x256_S256x256_S13952x256_1_0_0_1_n_n.contr.Idx) :
    (dot_S13952x256_S256x256_S13952x256_1_0_0_1_n_n.lhsIdx i q 0).val = (i 0).val := by
  unfold DotDims.lhsIdx
  rw [dif_neg (show ¬(0 : Fin S13952x256.rank) ∈ dot_S13952x256_S256x256_S13952x256_1_0_0_1_n_n.lhsBatch by decide), dif_pos (show (0 : Fin S13952x256.rank) ∈ dot_S13952x256_S256x256_S13952x256_1_0_0_1_n_n.lhsNonContracting by decide)]
  rfl
theorem lhs_mm1_1 (i : S13952x256.Idx) (q : dot_S13952x256_S256x256_S13952x256_1_0_0_1_n_n.contr.Idx) :
    (dot_S13952x256_S256x256_S13952x256_1_0_0_1_n_n.lhsIdx i q 1).val = (q ⟨0, by decide⟩).val :=
  dot_S13952x256_S256x256_S13952x256_1_0_0_1_n_n.lhsIdx_val_of_single rfl i q
theorem rhs_mm1_0 (i : S13952x256.Idx) (q : dot_S13952x256_S256x256_S13952x256_1_0_0_1_n_n.contr.Idx) :
    (dot_S13952x256_S256x256_S13952x256_1_0_0_1_n_n.rhsIdx i q 0).val = (q ⟨0, by decide⟩).val :=
  dot_S13952x256_S256x256_S13952x256_1_0_0_1_n_n.rhsIdx_val_of_single rfl i q
theorem rhs_mm1_1 (i : S13952x256.Idx) (q : dot_S13952x256_S256x256_S13952x256_1_0_0_1_n_n.contr.Idx) :
    (dot_S13952x256_S256x256_S13952x256_1_0_0_1_n_n.rhsIdx i q 1).val = (i 1).val := by
  unfold DotDims.rhsIdx
  rw [dif_neg (show ¬(1 : Fin S256x256.rank) ∈ dot_S13952x256_S256x256_S13952x256_1_0_0_1_n_n.rhsBatch by decide), dif_pos (show (1 : Fin S256x256.rank) ∈ dot_S13952x256_S256x256_S13952x256_1_0_0_1_n_n.rhsNonContracting by decide)]
  rfl

/-- The first product into the zero splat, read at (r, j): row r of the left operand against column j of the right. -/
theorem mm1_apply (A : FVec Ideal S13952x256 .bf16) (B : FVec Ideal S256x256 .bf16) (r : Fin 13952) (j : Fin 256) :
    matmul (F := Ideal) dot_S13952x256_S256x256_S13952x256_1_0_0_1_n_n none A B (constant S13952x256 .f32 0x00000000#32) (ix2 r j)
      = ∑ k : Fin 256, A (ix2 r k) * B (ix2 k j) := by
  simp only [matmul]
  rw [Ideal.matmul_constant_zero_apply, ← Equiv.sum_comp (ValueIdx.contrEquiv1 dot_S13952x256_S256x256_S13952x256_1_0_0_1_n_n 256 rfl rfl).symm]
  refine Finset.sum_congr rfl fun k _ => ?_
  have hk := ValueIdx.contrEquiv1_symm_val dot_S13952x256_S256x256_S13952x256_1_0_0_1_n_n 256 rfl rfl k
  have el : dot_S13952x256_S256x256_S13952x256_1_0_0_1_n_n.lhsIdx (ix2 r j) ((ValueIdx.contrEquiv1 dot_S13952x256_S256x256_S13952x256_1_0_0_1_n_n 256 rfl rfl).symm k) = ix2 r k := funext fun a => Fin.ext (by
    match a with
    | ⟨0, _⟩ => exact lhs_mm1_0 _ _
    | ⟨1, _⟩ => exact (lhs_mm1_1 _ _).trans hk)
  have er : dot_S13952x256_S256x256_S13952x256_1_0_0_1_n_n.rhsIdx (ix2 r j) ((ValueIdx.contrEquiv1 dot_S13952x256_S256x256_S13952x256_1_0_0_1_n_n 256 rfl rfl).symm k) = ix2 k j := funext fun a => Fin.ext (by
    match a with
    | ⟨0, _⟩ => exact (rhs_mm1_0 _ _).trans hk
    | ⟨1, _⟩ => exact rhs_mm1_1 _ _)
  rw [el, er]

/-! ## The second product's: both operands are contracted along their second axis -/

theorem lhs_mm2_0 (i : S47x13952.Idx) (q : dot_S47x256_S13952x256_S47x13952_1_1_0_0_n_n.contr.Idx) :
    (dot_S47x256_S13952x256_S47x13952_1_1_0_0_n_n.lhsIdx i q 0).val = (i 0).val := by
  unfold DotDims.lhsIdx
  rw [dif_neg (show ¬(0 : Fin S47x256.rank) ∈ dot_S47x256_S13952x256_S47x13952_1_1_0_0_n_n.lhsBatch by decide), dif_pos (show (0 : Fin S47x256.rank) ∈ dot_S47x256_S13952x256_S47x13952_1_1_0_0_n_n.lhsNonContracting by decide)]
  rfl
theorem lhs_mm2_1 (i : S47x13952.Idx) (q : dot_S47x256_S13952x256_S47x13952_1_1_0_0_n_n.contr.Idx) :
    (dot_S47x256_S13952x256_S47x13952_1_1_0_0_n_n.lhsIdx i q 1).val = (q ⟨0, by decide⟩).val :=
  dot_S47x256_S13952x256_S47x13952_1_1_0_0_n_n.lhsIdx_val_of_single rfl i q
theorem rhs_mm2_0 (i : S47x13952.Idx) (q : dot_S47x256_S13952x256_S47x13952_1_1_0_0_n_n.contr.Idx) :
    (dot_S47x256_S13952x256_S47x13952_1_1_0_0_n_n.rhsIdx i q 0).val = (i 1).val := by
  unfold DotDims.rhsIdx
  rw [dif_neg (show ¬(0 : Fin S13952x256.rank) ∈ dot_S47x256_S13952x256_S47x13952_1_1_0_0_n_n.rhsBatch by decide), dif_pos (show (0 : Fin S13952x256.rank) ∈ dot_S47x256_S13952x256_S47x13952_1_1_0_0_n_n.rhsNonContracting by decide)]
  rfl
theorem rhs_mm2_1 (i : S47x13952.Idx) (q : dot_S47x256_S13952x256_S47x13952_1_1_0_0_n_n.contr.Idx) :
    (dot_S47x256_S13952x256_S47x13952_1_1_0_0_n_n.rhsIdx i q 1).val = (q ⟨0, by decide⟩).val :=
  dot_S47x256_S13952x256_S47x13952_1_1_0_0_n_n.rhsIdx_val_of_single rfl i q

/-- The second product into the zero splat, read at (c, r): row c of the left operand against ROW r of the right. -/
theorem mm2_apply (W : FVec Ideal S47x256 .bf16) (H : FVec Ideal S13952x256 .bf16) (c : Fin 47) (r : Fin 13952) :
    matmul (F := Ideal) dot_S47x256_S13952x256_S47x13952_1_1_0_0_n_n none W H (constant S47x13952 .f32 0x00000000#32) (ix2 c r)
      = ∑ k : Fin 256, W (ix2 c k) * H (ix2 r k) := by
  simp only [matmul]
  rw [Ideal.matmul_constant_zero_apply, ← Equiv.sum_comp (ValueIdx.contrEquiv1 dot_S47x256_S13952x256_S47x13952_1_1_0_0_n_n 256 rfl rfl).symm]
  refine Finset.sum_congr rfl fun k _ => ?_
  have hk := ValueIdx.contrEquiv1_symm_val dot_S47x256_S13952x256_S47x13952_1_1_0_0_n_n 256 rfl rfl k
  have el : dot_S47x256_S13952x256_S47x13952_1_1_0_0_n_n.lhsIdx (ix2 c r) ((ValueIdx.contrEquiv1 dot_S47x256_S13952x256_S47x13952_1_1_0_0_n_n 256 rfl rfl).symm k) = ix2 c k := funext fun a => Fin.ext (by
    match a with
    | ⟨0, _⟩ => exact lhs_mm2_0 _ _
    | ⟨1, _⟩ => exact (lhs_mm2_1 _ _).trans hk)
  have er : dot_S47x256_S13952x256_S47x13952_1_1_0_0_n_n.rhsIdx (ix2 c r) ((ValueIdx.contrEquiv1 dot_S47x256_S13952x256_S47x13952_1_1_0_0_n_n 256 rfl rfl).symm k) = ix2 r k := funext fun a => Fin.ext (by
    match a with
    | ⟨0, _⟩ => exact rhs_mm2_0 _ _
    | ⟨1, _⟩ => exact (rhs_mm2_1 _ _).trans hk)
  rw [el, er]

/-! ## The layout steps and the zero word -/

/-- A `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bf16 pattern of zero is the extended real zero. -/
theorem ofBits_zero_bf16' : Ideal.ofBits .bf16 0x0000#16 = 0 := by simp [Ideal.ofBits, Ideal.ieee]

/-! ## The hidden block -/

/-- The hidden block as the body computes it: product, bias row, rectifier. -/
def hidB (X0 : Vec Ideal S13952x256 .f32) (X1 : Vec Ideal S256x256 .f32) (X2 : Vec Ideal S1x256 .f32) : FVec Ideal S13952x256 .bf16 :=
  maximumf
    (addf
      (truncf .bf16 (matmul (F := Ideal) dot_S13952x256_S256x256_S13952x256_1_0_0_1_n_n none (truncf .bf16 X0 Facts₀.bitsLt_bf16_f32)
        (truncf .bf16 X1 Facts₀.bitsLt_bf16_f32) (constant S13952x256 .f32 0x00000000#32)) Facts₀.bitsLt_bf16_f32)
      (broadcastTo S13952x256 (truncf .bf16 (shapeCast S1x256 X2 Facts₀.shapeCasts_S1x256_S1x256) Facts₀.bitsLt_bf16_f32)
        Facts₀.broadcasts_S1x256_S13952x256))
    (broadcast S13952x256 (Scalar.ofBits (F := Ideal) .bf16 0x0000#16))

theorem hid_apply (X0 : Vec Ideal S13952x256 .f32) (X1 : Vec Ideal S256x256 .f32) (X2 : Vec Ideal S1x256 .f32)
    (r : Fin 13952) (j : Fin 256) :
    hidB X0 X1 X2 (ix2 r j) = Cert.Mlp.hidden X0 X1 (fun j => X2 (ix2 (0 : Fin 1) j)) r j := by
  unfold hidB Cert.Mlp.hidden
  rw [maximumf_apply, addf_apply, truncf_apply, mm1_apply, broadcast_apply]
  rw [broadcastTo_1b_ab_apply, truncf_apply, shapeCast_self]
  show max _ (Ideal.ofBits .bf16 0x0000#16) = _
  rw [ofBits_zero_bf16']
  rfl

/-- The stored value is the second product of the second weights against the hidden block, plus the bias column. -/
theorem pay_eq (X0 : Vec Ideal S13952x256 .f32) (X1 : Vec Ideal S256x256 .f32) (X2 : Vec Ideal S1x256 .f32)
    (X3 : Vec Ideal S47x256 .f32) (X4 : Vec Ideal S47x1 .f32) :
    k0_pay1 (F := Ideal) X0 X1 X2 X3 X4
      = addf (matmul (F := Ideal) dot_S47x256_S13952x256_S47x13952_1_1_0_0_n_n none
            (truncf .bf16 (shapeCast S47x256 X3 Facts₀.shapeCasts_S47x256_S47x256) Facts₀.bitsLt_bf16_f32) (hidB X0 X1 X2)
            (constant S47x13952 .f32 0x00000000#32))
          (broadcastTo S47x13952 (shapeCast S47x1 X4 Facts₀.shapeCasts_S47x1_S47x1) Facts₀.broadcasts_S47x1_S47x13952) := rfl

theorem pay_apply (X0 : Vec Ideal S13952x256 .f32) (X1 : Vec Ideal S256x256 .f32) (X2 : Vec Ideal S1x256 .f32)
    (X3 : Vec Ideal S47x256 .f32) (X4 : Vec Ideal S47x1 .f32) (c : Fin 47) (r : Fin 13952) :
    k0_pay1 (F := Ideal) X0 X1 X2 X3 X4 (ix2 c r)
      = Cert.Mlp.logitT X0 X1 (fun j => X2 (ix2 (0 : Fin 1) j)) X3 (fun c' => X4 (ix2 c' (0 : Fin 1))) r c := by
  rw [pay_eq]
  unfold Cert.Mlp.logitT
  rw [addf_apply, mm2_apply, broadcastTo_a1_ab_apply, shapeCast_self, shapeCast_self]
  refine congrArg (· + X4 (ix2 c (0 : Fin 1))) (Finset.sum_congr rfl fun k _ => ?_)
  rw [truncf_apply, hid_apply]

end Cert.KernelIdeal.Pay

end
-- ==== Proof.KCut.lean ====
/-
  At the ideal instance the result block's columns inside the result array do not depend on what the features'
  staging buffer holds below the array's end: column r of the block is computed from row r of the features' block
  alone, and the columns inside the result array are exactly the rows of the features inside theirs.
-/
import proofs.«131517_g5540507811991_cont_9to1c4b_52_38_alg».proof.Proof.KDat
import proofs.«131517_g5540507811991_cont_9to1c4b_52_38_alg».proof.Proof.KPay

noncomputable section

namespace Cert.KernelIdeal.Cut

open Cert.KernelIdeal Cert.KernelIdeal.Gen Cert.KernelIdeal.Data
open Idealize.ShloMosaic Idealize.ShloMosaic.TcCoe Idealize.ShloMosaic.ValueIdx Idealize.SL.Sem

variable (m : (ℓ : Loc nD τ sig) → Buf (Elt Ideal) ℓ)

/-- An entry of the result block reads one row of the features' block: two blocks that agree on row `r` give
    column `r` of the result the same entries. -/
theorem pay_row (X0 X0' : Vec Ideal S13952x256 .f32) (X1 : Vec Ideal S256x256 .f32) (X2 : Vec Ideal S1x256 .f32)
    (X3 : Vec Ideal S47x256 .f32) (X4 : Vec Ideal S47x1 .f32) (cc : Fin 47) (r : Fin 13952)
    (h : ∀ k : Fin 256, X0 (ix2 r k) = X0' (ix2 r k)) :
    k0_pay1 (F := Ideal) X0 X1 X2 X3 X4 (ix2 cc r) = k0_pay1 (F := Ideal) X0' X1 X2 X3 X4 (ix2 cc r) :=
  (Pay.pay_apply X0 X1 X2 X3 X4 cc r).trans
    ((Cert.Mlp.logitT_congr X1 (fun j => X2 (ix2 (0 : Fin 1) j)) X3 (fun c' => X4 (ix2 c' (0 : Fin 1))) h cc).trans
      (Pay.pay_apply X0' X1 X2 X3 X4 cc r).symm)

/-- The result's window and the features' window are cut alike: the result block's columns inside the result array
    are as many as the features' block's rows inside the features array. -/
theorem xsize_5_1 (t : Fin cfg0.N) : win0_5.xsize (grid0.coords t) 1 = win0_0.xsize (grid0.coords t) 0 := by
  rcases fin_N0 t with rfl | rfl | rfl | rfl <;> decide +kernel

/-- The features' block is never cut along its columns. -/
theorem xsize_0_1 (t : Fin cfg0.N) : win0_0.xsize (grid0.coords t) 1 = 256 := by
  rcases fin_N0 t with rfl | rfl | rfl | rfl <;> decide +kernel

/-- The result's block is never cut along its rows. -/
theorem xsize_5_0 (t : Fin cfg0.N) : win0_5.xsize (grid0.coords t) 0 = 47 := by
  rcases fin_N0 t with rfl | rfl | rfl | rfl <;> decide +kernel

/-- On an index the transfer moves, the filled-out block holds the moved part whatever the filler is. -/
theorem fill_of_moved {α : Type} {G : Pipeline.Grid} (w : Pipeline.Window sig G) (i : G.Coords) (d d' : w.block.Idx → α)
    (g : (w.xblock i).Idx → α) {j : w.block.Idx} (h : w.moved i j = true) : w.fill i d g j = w.fill i d' g j := by
  unfold Pipeline.Window.fill; rw [dif_pos h, dif_pos h]

/-- On a row inside the features array the features' block filled out below the array's end does not depend on the
    filler. -/
theorem xfull_inside (c : Dev nD) (t : Fin cfg0.N) (d d' : S13952x256.Idx → Elt Ideal .f32) (r : Fin 13952) (k : Fin 256)
    (hr : r.val < win0_0.xsize (grid0.coords t) 0) : xfull m c t d (ix2 r k) = xfull m c t d' (ix2 r k) :=
  fill_of_moved win0_0 (grid0.coords t) d d' (xpart m c t) ((win0_0.moved_iff (grid0.coords t) (ix2 r k)).mpr fun a =>
    match a with
    | ⟨0, _⟩ => hr
    | ⟨1, _⟩ => (xsize_0_1 t).symm ▸ k.isLt)

/-- The columns of the result block inside the result array do not depend on the filler below the features array's end:
    such a column is a row of the features' block inside the features array, where the filled-out block holds the
    block's own entry. -/
theorem pay_cut (c : Dev nD) (t : Fin cfg0.N) (d : S13952x256.Idx → Elt Ideal .f32) :
    win0_5.cut (grid0.coords t) (outOf m c t d) = win0_5.cut (grid0.coords t) (outOf m c t zfill) := by
  funext y
  have h0 : (y 0).val < 47 := (xsize_5_0 t) ▸ (y 0).isLt
  have h1 : (y 1).val < win0_0.xsize (grid0.coords t) 0 := (xsize_5_1 t) ▸ (y 1).isLt
  have h1' : (y 1).val < 13952 := Nat.lt_of_lt_of_le h1 (win0_0.xsize_le (grid0.coords t) 0)
  have hidx : win0_5.xinj (grid0.coords t) y = ix2 (⟨(y 0).val, h0⟩ : Fin 47) (⟨(y 1).val, h1'⟩ : Fin 13952) := by
    funext a; match a with | ⟨0, _⟩ => rfl | ⟨1, _⟩ => rfl
  show outOf m c t d (win0_5.xinj (grid0.coords t) y) = outOf m c t zfill (win0_5.xinj (grid0.coords t) y)
  rw [hidx]
  exact pay_row _ _ _ _ _ _ _ _ fun k => xfull_inside m c t d zfill ⟨(y 1).val, h1'⟩ k h1

end Cert.KernelIdeal.Cut

end
-- ==== Proof.KFrame.lean ====
/-
  The frame run of the idealized kernel. At each grid point the body finds the features' block filled out below the
  array's end with words nothing names, the four whole-array operands, and a result buffer at contents nothing
  names; it leaves the operands as found and the result buffer at its value of them. The features' and the result's
  windows are stated only on the part their transfers move: for the features that part is the block itself, and for
  the result it is independent of the unnamed rows (the columns inside the result array are computed from rows of the
  features inside theirs). The launch, the region and the host line after it are the library's.
-/
import proofs.«131517_g5540507811991_cont_9to1c4b_52_38_alg».proof.Defs
import proofs.«131517_g5540507811991_cont_9to1c4b_52_38_alg».proof.Proof.Gen.Pre_finite_inputs
import proofs.«131517_g5540507811991_cont_9to1c4b_52_38_alg».proof.Proof.KDat
import proofs.«131517_g5540507811991_cont_9to1c4b_52_38_alg».proof.Proof.KBody
import proofs.«131517_g5540507811991_cont_9to1c4b_52_38_alg».proof.Proof.KCut
import Idealize.ShloMosaic.Lib.Pipeline.FrameSuffix

noncomputable section

namespace Cert.KernelIdeal.Frame

open Cert.KernelIdeal Cert.KernelIdeal.Gen Cert.KernelIdeal.Data Cert.KernelIdeal.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The library's body obligation from the body's triple. The body is handed the features' block filled out with some
    `d0`, the four whole arrays, and a result buffer at any `d5`; it hands the first five back unchanged and the sixth
    at its value of them. The features' window is stated on the rows inside the array, where the buffer holds the
    block whatever `d0` is; the result's on the columns inside the array, where its value does not depend on `d0`. -/
theorem body_obligation (c : Dev nD) : BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4, before_5 m c t d5]
  iapply (sound_body (F := Ideal) c Set.univ (grid0.coords t) (cfg0.slots t 0) (cfg0.slots t 1) (cfg0.slots t 2)
    (cfg0.slots t 3) (cfg0.slots t 4) (cfg0.slots t 5)
    (xfull m c t d0) (iblk m c 1 t) (iblk m c 2 t) (iblk m c 3 t) (iblk m c 4 t) d5 _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]
  · -- the block filled out with `d0` IS the named block (filled out with zeros) on the rows inside the array
    iexists d0
    change _ ⊢ owns (c : Thread nD τ) (stage0_0 (cfg0.slots t 0)) fullShare
      (win0_0.fill (grid0.coords t) d0 (win0_0.cut (grid0.coords t) (xfull m c t zfill)))
    rw [win0_0.cut_fill]
  isplitl [H1]; · iexact H1
  isplitl [H2]; · iexact H2
  isplitl [H3]; · iexact H3
  isplitl [H4]; · iexact H4
  · -- the value computed from the block filled out with `d0` agrees with the named one on the columns inside the array
    iexists outOf m c t d0
    change _ ⊢ owns (c : Thread nD τ) (stage0_5 (cfg0.slots t 5)) fullShare
      (win0_5.fill (grid0.coords t) (outOf m c t d0) (win0_5.cut (grid0.coords t) (outOf m c t zfill)))
    rw [← Cert.KernelIdeal.Cut.pay_cut m c t d0, win0_5.fill_cut]

/-- Every weakly fair execution of @main terminates with each array of the pipeline at what the proof data computes
    and every buffer that bypasses the region at its contents after the host line that follows it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) 0 launch0 defs₀ 𝒱₀ m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hΦ := fun _ _ => rfl)

/-- The arguments end as launched. -/
theorem frame : Cert.frame_KernelIdeal := fun m ρ _ => frame_of m ρ (dats m) (fun _ _ => rfl) (run_main m ρ)

end Cert.KernelIdeal.Frame

end
-- ==== Proof.KValue.lean ====
/-
  The idealized kernel's result. Each grid point writes back the columns of its result block that lie inside the
  47 × 50000 array, and column `q` of the array, which is row `q` of the features, lies in the block of index
  `q / 13952`; the four points visit the block indices 3, 0, 1, 2, so together the write-backs cover the array, which
  ends holding the transposed logits. The host line after the region transposes it to the 50000 × 47 result.
-/
import proofs.«131517_g5540507811991_cont_9to1c4b_52_38_alg».proof.Proof.KFrame
import proofs.«131517_g5540507811991_cont_9to1c4b_52_38_alg».proof.Proof.KPay
import proofs.«131517_g5540507811991_cont_9to1c4b_52_38_alg».proof.Proof.Spec
import Idealize.ShloMosaic.Lib.Pipeline.Value
import Idealize.ShloMosaic.Lib.StableHlo.Run
import Idealize.ShloMosaic.Lib.ValueLayout

noncomputable section

namespace Cert.KernelIdeal.Value

open Cert.KernelIdeal Cert.KernelIdeal.Gen Cert.KernelIdeal.Data
open Idealize.ShloMosaic Idealize.ShloMosaic.TcCoe Idealize.ShloMosaic.ValueIdx Idealize.SL.Sem

variable (m : (ℓ : Loc nD τ sig) → Buf (Elt Ideal) ℓ) (ρ : Dev nD → PrngReg)

/-- The logits of the launch contents, as the 50000 × 47 result. -/
abbrev res (c : Dev nD) : S50000x47.Idx → EReal :=
  Cert.Mlp.result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-! ## The index maps over the grid -/

/-- The features' row blocks and the result's column blocks move together: at every point the features' block index on the
    rows is the result's on the columns, the other two block indices are zero, the two windows are cut alike at the arrays'
    end, and the result's block is whole (block indices 0, 1, 2) or holds 8144 columns inside the array (block index 3). -/
theorem idx_facts : ∀ t : Fin cfg0.N,
    win0_0.index t (0 : Fin 2) = win0_5.index t (1 : Fin 2)
    ∧ win0_0.index t (1 : Fin 2) = 0
    ∧ win0_5.index t (0 : Fin 2) = 0
    ∧ win0_0.xsize (grid0.coords t) (0 : Fin 2) = win0_5.xsize (grid0.coords t) (1 : Fin 2)
    ∧ win0_0.xsize (grid0.coords t) (1 : Fin 2) = 256
    ∧ win0_5.xsize (grid0.coords t) (0 : Fin 2) = 47
    ∧ ((win0_5.index t (1 : Fin 2) ≤ 2 ∧ win0_5.xsize (grid0.coords t) (1 : Fin 2) = 13952)
        ∨ (win0_5.index t (1 : Fin 2) = 3 ∧ win0_5.xsize (grid0.coords t) (1 : Fin 2) = 8144)) :=
  (by decide +kernel : ∀ t : Fin grid0.N, _)

/-- The four whole-array operands' blocks are at block index zero on both axes at every point. -/
theorem idx_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Each of the four column blocks of the result is some point's. -/
theorem idx_onto : ∀ b : Fin 4, ∃ t : Fin cfg0.N, win0_5.index t (1 : Fin 2) = b.val :=
  (by decide +kernel : ∀ b : Fin 4, ∃ t : Fin grid0.N, win0_5.index t (1 : Fin 2) = b.val)

/-! ## The body's value at an entry, and the two forms of a logit -/

/-- Entry `j` of the body's result block is the transposed-form logit of class `j 0` at row `j 1` of the features' block. -/
theorem pay_at (X0 : Vec Ideal S13952x256 .f32) (X1 : Vec Ideal S256x256 .f32) (X2 : Vec Ideal S1x256 .f32)
    (X3 : Vec Ideal S47x256 .f32) (X4 : Vec Ideal S47x1 .f32) (j : S47x13952.Idx) :
    k0_pay1 (F := Ideal) X0 X1 X2 X3 X4 j
      = Cert.Mlp.logitT X0 X1 (fun j' => X2 (ix2 (0 : Fin 1) j')) X3 (fun c' => X4 (ix2 c' (0 : Fin 1))) (j 1) (j 0) :=
  (congrArg (k0_pay1 (F := Ideal) X0 X1 X2 X3 X4) (eq_ix2 j)).trans (Cert.KernelIdeal.Pay.pay_apply X0 X1 X2 X3 X4 (j 0) (j 1))

/-- A transposed-form logit of a row of one feature matrix is the plain logit of a row of another when the two rows agree,
    the first weights and the biases agree entry by entry, and the second weights are each other's transposes. -/
theorem logitT_to_logit {n : Nat} (x : (⟨2, ![n, 256]⟩ : Shape).Idx → EReal) (x' : (⟨2, ![50000, 256]⟩ : Shape).Idx → EReal)
    (w1 w1' : (⟨2, ![256, 256]⟩ : Shape).Idx → EReal) (b1 b1' : Fin 256 → EReal)
    (w2t : (⟨2, ![47, 256]⟩ : Shape).Idx → EReal) (w2 : (⟨2, ![256, 47]⟩ : Shape).Idx → EReal) (b2 b2' : Fin 47 → EReal)
    (r : Fin n) (R : Fin 50000) (cc : Fin 47)
    (hx : ∀ k : Fin 256, x (ix2 r k) = x' (ix2 R k)) (h1 : ∀ i, w1 i = w1' i) (hb1 : ∀ j, b1 j = b1' j)
    (ht : ∀ (c : Fin 47) (j : Fin 256), w2t (ix2 c j) = w2 (ix2 j c)) (hb2 : ∀ c, b2 c = b2' c) :
    Cert.Mlp.logitT x w1 b1 w2t b2 r cc = Cert.Mlp.logit x' w1' b1' w2 b2' R cc := by
  obtain rfl : w1 = w1' := funext h1
  obtain rfl : b1 = b1' := funext hb1
  obtain rfl : b2 = b2' := funext hb2
  rw [Cert.Mlp.logitT_congr w1 b1 w2t b2 hx cc, Cert.Mlp.logitT_eq_logit x' w1 b1 w2 w2t b2 ht R cc]

/-! ## The arrays the host lines before the region wrote

The first bias as a 1 × 256 row, the second weights transposed to 47 × 256, the second bias as a 47 × 1 column. -/

theorem V_v0 (c : Dev nD) : (V m c main_v0 : S1x256.Idx → EReal)
    = shapeCast S1x256 (m ((c.tc : Thread nD τ).loc main_arg2) : S256.Idx → EReal) shapeCasts_S256_S1x256 := by
  show StableHlo.after hostOps0 (fun b => m (c, b)) (Proc.devRef .tc main_v0) = _
  after_results
  rfl

theorem V_v1 (c : Dev nD) : (V m c main_v1 : S47x256.Idx → EReal)
    = transpose S47x256 [1, 0] (m ((c.tc : Thread nD τ).loc main_arg3) : S256x47.Idx → EReal) transposes_S256x47_S47x256_1_0 := by
  show StableHlo.after hostOps0 (fun b => m (c, b)) (Proc.devRef .tc main_v1) = _
  after_results

theorem V_v2 (c : Dev nD) : (V m c main_v2 : S47x1.Idx → EReal)
    = shapeCast S47x1 (m ((c.tc : Thread nD τ).loc main_arg4) : S47.Idx → EReal) shapeCasts_S47_S47x1 := by
  show StableHlo.after hostOps0 (fun b => m (c, b)) (Proc.devRef .tc main_v2) = _
  after_results
  rfl

/-- The bias row at `(u, j)` is the first bias at `j`. -/
theorem V_v0_apply (c : Dev nD) (u : Fin 1) (j : Fin 256) :
    (V m c main_v0 : S1x256.Idx → EReal) (ix2 u j) = (m ((c.tc : Thread nD τ).loc main_arg2) : S256.Idx → EReal) (ix1 j) := by
  rw [V_v0]; exact shapeCast_a_1a_apply _ _ u j

/-- The transposed second weights at `(cc, j)` are the second weights at `(j, cc)`. -/
theorem V_v1_apply (c : Dev nD) (cc : Fin 47) (j : Fin 256) :
    (V m c main_v1 : S47x256.Idx → EReal) (ix2 cc j) = (m ((c.tc : Thread nD τ).loc main_arg3) : S256x47.Idx → EReal) (ix2 j cc) := by
  rw [V_v1]; exact transpose_ix2_apply _ _ cc j

/-- The bias column at `(cc, u)` is the second bias at `cc`: the two row-major positions are `cc`. -/
theorem V_v2_apply (c : Dev nD) (cc : Fin 47) (u : Fin 1) :
    (V m c main_v2 : S47x1.Idx → EReal) (ix2 cc u) = (m ((c.tc : Thread nD τ).loc main_arg4) : S47.Idx → EReal) (ix1 cc) := by
  rw [V_v2]
  refine shapeCast_apply (s := S47) (t := S47x1) _ _ _ _ ?_
  have hu : u.val = 0 := by omega
  show (S47.rowMajor (ix1 cc)).val = (S47x1.rowMajor (ix2 cc u)).val
  rw [Shape.rowMajor_val_two, Shape.rowMajor_val_one]
  show cc.val = cc.val * 1 + u.val
  omega

/-! ## The blocks the body is handed, read at an index

An element of a block sits in its array, on each axis, at the block index times the block's size plus its own coordinate.
The four whole-array operands' blocks are at block index zero: they are their arrays. -/

theorem iblk1_apply (c : Dev nD) (t : Fin cfg0.N) (i : S256x256.Idx) :
    (iblk m c 1 t : S256x256.Idx → EReal) i = (m ((c.tc : Thread nD τ).loc main_arg1) : S256x256.Idx → EReal) i := by
  obtain ⟨e0, e1, -⟩ := idx_whole t
  unfold iblk
  rw [View.read_apply]
  show V m c main_arg1 _ = _
  rw [V_main_arg1]
  refine congrArg (m ((c.tc : Thread nD τ).loc main_arg1) : S256x256.Idx → EReal) (funext fun a => Fin.ext ?_)
  match a with
  | ⟨0, _⟩ => show win0_1.index t (0 : Fin 2) * 256 + 1 * (i 0).val = (i 0).val; rw [e0]; omega
  | ⟨1, _⟩ => show win0_1.index t (1 : Fin 2) * 256 + 1 * (i 1).val = (i 1).val; rw [e1]; omega

theorem iblk2_apply (c : Dev nD) (t : Fin cfg0.N) (u : Fin 1) (j : Fin 256) :
    (iblk m c 2 t : S1x256.Idx → EReal) (ix2 u j) = (m ((c.tc : Thread nD τ).loc main_arg2) : S256.Idx → EReal) (ix1 j) := by
  obtain ⟨-, -, e0, e1, -⟩ := idx_whole t
  refine Eq.trans ?_ (V_v0_apply m c u j)
  unfold iblk
  rw [View.read_apply]
  show V m c main_v0 _ = _
  refine congrArg (V m c main_v0 : S1x256.Idx → EReal) (funext fun a => Fin.ext ?_)
  match a with
  | ⟨0, _⟩ => show win0_2.index t (0 : Fin 2) * 1 + 1 * u.val = u.val; rw [e0]; omega
  | ⟨1, _⟩ => show win0_2.index t (1 : Fin 2) * 256 + 1 * j.val = j.val; rw [e1]; omega

theorem iblk3_apply (c : Dev nD) (t : Fin cfg0.N) (cc : Fin 47) (j : Fin 256) :
    (iblk m c 3 t : S47x256.Idx → EReal) (ix2 cc j) = (m ((c.tc : Thread nD τ).loc main_arg3) : S256x47.Idx → EReal) (ix2 j cc) := by
  obtain ⟨-, -, -, -, e0, e1, -⟩ := idx_whole t
  refine Eq.trans ?_ (V_v1_apply m c cc j)
  unfold iblk
  rw [View.read_apply]
  show V m c main_v1 _ = _
  refine congrArg (V m c main_v1 : S47x256.Idx → EReal) (funext fun a => Fin.ext ?_)
  match a with
  | ⟨0, _⟩ => show win0_3.index t (0 : Fin 2) * 47 + 1 * cc.val = cc.val; rw [e0]; omega
  | ⟨1, _⟩ => show win0_3.index t (1 : Fin 2) * 256 + 1 * j.val = j.val; rw [e1]; omega

theorem iblk4_apply (c : Dev nD) (t : Fin cfg0.N) (cc : Fin 47) (u : Fin 1) :
    (iblk m c 4 t : S47x1.Idx → EReal) (ix2 cc u) = (m ((c.tc : Thread nD τ).loc main_arg4) : S47.Idx → EReal) (ix1 cc) := by
  obtain ⟨-, -, -, -, -, -, e0, e1⟩ := idx_whole t
  refine Eq.trans ?_ (V_v2_apply m c cc u)
  unfold iblk
  rw [View.read_apply]
  show V m c main_v2 _ = _
  refine congrArg (V m c main_v2 : S47x1.Idx → EReal) (funext fun a => Fin.ext ?_)
  match a with
  | ⟨0, _⟩ => show win0_4.index t (0 : Fin 2) * 47 + 1 * cc.val = cc.val; rw [e0]; omega
  | ⟨1, _⟩ => show win0_4.index t (1 : Fin 2) * 1 + 1 * u.val = u.val; rw [e1]; omega

/-- A row of the features' block that lies inside the array is the array's row, whatever fills the block out below the
    array's end. -/
theorem xfull_apply (c : Dev nD) (t : Fin cfg0.N) (d : S13952x256.Idx → EReal) (r : Fin 13952) (k : Fin 256) (R : Fin 50000)
    (hr : r.val < win0_0.xsize (grid0.coords t) (0 : Fin 2))
    (hR : R.val = win0_0.index t (0 : Fin 2) * 13952 + r.val) :
    xfull m c t d (ix2 r k) = (m ((c.tc : Thread nD τ).loc main_arg0) : S50000x256.Idx → EReal) (ix2 R k) := by
  obtain ⟨-, e1, -, -, e4, -⟩ := idx_facts t
  have hmv : win0_0.moved (grid0.coords t) (ix2 r k) = true :=
    (win0_0.moved_iff (grid0.coords t) (ix2 r k)).mpr fun a => by
      match a with
      | ⟨0, _⟩ => exact hr
      | ⟨1, _⟩ => show k.val < win0_0.xsize (grid0.coords t) (1 : Fin 2); rw [e4]; exact k.isLt
  show win0_0.fill (grid0.coords t) d (iblk m c 0 t) (ix2 r k) = _
  unfold Pipeline.Window.fill
  rw [dif_pos hmv]
  unfold iblk
  rw [View.read_apply]
  show V m c main_arg0 _ = _
  rw [V_main_arg0]
  refine congrArg (m ((c.tc : Thread nD τ).loc main_arg0) : S50000x256.Idx → EReal) (funext fun a => Fin.ext ?_)
  match a with
  | ⟨0, _⟩ => show win0_0.index t (0 : Fin 2) * 13952 + 1 * r.val = R.val; omega
  | ⟨1, _⟩ => show win0_0.index t (1 : Fin 2) * 256 + 1 * k.val = k.val; rw [e1]; omega

/-! ## From the blocks to the array -/

/-- The transposed logits of the launch contents: entry `(c, r)` is class `c`'s logit of row `r`. -/
abbrev G (c : Dev nD) : S47x50000.Idx → EReal :=
  fun i => res m c (ix2 ⟨(i 1).val, idx2_lt1 i⟩ ⟨(i 0).val, idx2_lt0 i⟩)

theorem G_apply (c : Dev nD) (i : S47x50000.Idx) (R : Fin 50000) (C : Fin 47) (hR : R.val = (i 1).val) (hC : C.val = (i 0).val) :
    G m c i = Cert.Mlp.logit (m ((c.tc : Thread nD τ).loc main_arg0)) (m ((c.tc : Thread nD τ).loc main_arg1))
      (fun j => (m ((c.tc : Thread nD τ).loc main_arg2) : S256.Idx → EReal) (ix1 j)) (m ((c.tc : Thread nD τ).loc main_arg3))
      (fun c' => (m ((c.tc : Thread nD τ).loc main_arg4) : S47.Idx → EReal) (ix1 c')) R C := by
  obtain rfl : R = ⟨(i 1).val, idx2_lt1 i⟩ := Fin.ext hR
  obtain rfl : C = ⟨(i 0).val, idx2_lt0 i⟩ := Fin.ext hC
  rfl

/-- What point `t` writes back is its block of the transposed logits: column `y 1` of the block inside the result array is
    computed from row `y 1` of the features' block, which is inside the features' array (the two windows are cut alike) and
    is the array's row `index × 13952 + y 1`, the column's own position in the result array. -/
theorem flushed_eq (c : Dev nD) (t : Fin cfg0.N) :
    (dats m 0 c).flushed (5 : Fin 6) t = ((cfg0.win (5 : Fin 6)).blk t).view.read (Elt Ideal) (G m c) := by
  obtain ⟨e0, e1, e2, e3, e4, e5, e6⟩ := idx_facts t
  funext y
  rw [View.read_apply]
  show k0_pay1 (F := Ideal) (xfull m c t zfill) (iblk m c 1 t) (iblk m c 2 t) (iblk m c 3 t) (iblk m c 4 t)
      (win0_5.xinj (grid0.coords t) y) = G m c (((cfg0.win (5 : Fin 6)).blk t).view.emb y)
  refine (pay_at (xfull m c t zfill) (iblk m c 1 t) (iblk m c 2 t) (iblk m c 3 t) (iblk m c 4 t)
    (win0_5.xinj (grid0.coords t) y)).trans ?_
  have hy1 : (y 1).val < win0_5.xsize (grid0.coords t) (1 : Fin 2) := (y 1).isLt
  have hRlt : win0_5.index t (1 : Fin 2) * 13952 + (y 1).val < 50000 := by omega
  have hC : (win0_5.xinj (grid0.coords t) y 0).val = ((((cfg0.win (5 : Fin 6)).blk t).view.emb y) 0).val := by
    show (y 0).val = win0_5.index t (0 : Fin 2) * 47 + 1 * (y 0).val
    rw [e2]; omega
  have hR : (⟨win0_5.index t (1 : Fin 2) * 13952 + (y 1).val, hRlt⟩ : Fin 50000).val
      = ((((cfg0.win (5 : Fin 6)).blk t).view.emb y) 1).val := by
    show win0_5.index t (1 : Fin 2) * 13952 + (y 1).val = win0_5.index t (1 : Fin 2) * 13952 + 1 * (y 1).val
    omega
  refine Eq.trans ?_ (G_apply m c _ ⟨win0_5.index t (1 : Fin 2) * 13952 + (y 1).val, hRlt⟩ (win0_5.xinj (grid0.coords t) y 0) hR hC).symm
  exact logitT_to_logit (xfull m c t zfill) (m ((c.tc : Thread nD τ).loc main_arg0)) (iblk m c 1 t) (m ((c.tc : Thread nD τ).loc main_arg1))
    (fun j' => iblk m c 2 t (ix2 (0 : Fin 1) j')) (fun j => (m ((c.tc : Thread nD τ).loc main_arg2) : S256.Idx → EReal) (ix1 j))
    (iblk m c 3 t) (m ((c.tc : Thread nD τ).loc main_arg3))
    (fun c' => iblk m c 4 t (ix2 c' (0 : Fin 1))) (fun c' => (m ((c.tc : Thread nD τ).loc main_arg4) : S47.Idx → EReal) (ix1 c'))
    (win0_5.xinj (grid0.coords t) y 1) ⟨win0_5.index t (1 : Fin 2) * 13952 + (y 1).val, hRlt⟩ (win0_5.xinj (grid0.coords t) y 0)
    (fun k => xfull_apply m c t (zfill (F := Ideal)) (win0_5.xinj (grid0.coords t) y 1) k ⟨win0_5.index t (1 : Fin 2) * 13952 + (y 1).val, hRlt⟩
      (by rw [e3]; exact hy1) (by rw [e0]))
    (iblk1_apply m c t) (fun j => iblk2_apply m c t 0 j) (iblk3_apply m c t) (fun cc => iblk4_apply m c t cc 0)

/-- An index of the result array is in point `t`'s block iff each coordinate is in the block's range inside the array. -/
theorem mem_blk5 (t : Fin cfg0.N) (i : S47x50000.Idx) :
    i ∈ ((cfg0.win (5 : Fin 6)).blk t).view.set ↔ ∀ a : Fin 2, win0_5.index t a * S47x13952.size a ≤ (i a).val
      ∧ (i a).val < win0_5.index t a * S47x13952.size a + win0_5.xsize (grid0.coords t) a := by
  show i ∈ ((View.whole main_v3).slice (win0_5.rect t)).set ↔ _
  rw [View.set_slice_whole, Rect.mem_set_unit]
  exact Iff.rfl

/-- Column `q` of the result array is in the block of index `q / 13952`, which some point writes back: blocks 0, 1, 2 hold
    13952 columns each, block 3 the last 8144. -/
theorem cover5 (i : S47x50000.Idx) :
    ∃ t : Fin cfg0.N, (cfg0.win (5 : Fin 6)).flush t = true ∧ i ∈ ((cfg0.win (5 : Fin 6)).blk t).view.set := by
  have hi0 : (i 0).val < 47 := idx2_lt0 i
  have hi1 : (i 1).val < 50000 := idx2_lt1 i
  obtain ⟨t, ht⟩ := idx_onto ⟨(i 1).val / 13952, by omega⟩
  have ht' : win0_5.index t (1 : Fin 2) = (i 1).val / 13952 := ht
  obtain ⟨-, -, e2, -, -, e5, e6⟩ := idx_facts t
  refine ⟨t, flush0_5 t, ?_⟩
  rw [mem_blk5]
  intro a
  match a with
  | ⟨0, _⟩ =>
    show win0_5.index t (0 : Fin 2) * 47 ≤ (i 0).val ∧ (i 0).val < win0_5.index t (0 : Fin 2) * 47 + win0_5.xsize (grid0.coords t) (0 : Fin 2)
    rw [e2, e5]; omega
  | ⟨1, _⟩ =>
    show win0_5.index t (1 : Fin 2) * 13952 ≤ (i 1).val ∧ (i 1).val < win0_5.index t (1 : Fin 2) * 13952 + win0_5.xsize (grid0.coords t) (1 : Fin 2)
    omega

/-- The kernel's result array after the run: the logits, transposed. -/
theorem final5 (c : Dev nD) :
    (dats m 0 c).arrAt (5 : Fin 6) cfg0.N = fun i : S47x50000.Idx => res m c (ix2 ⟨(i 1).val, idx2_lt1 i⟩ ⟨(i 0).val, idx2_lt0 i⟩) :=
  (dats m 0 c).arrAt_eq_of_cover (5 : Fin 6) (G m c) (fun t _ => flushed_eq m c t) cover5

/-! ## The host line after the region, and the run -/

/-- The program's result is the transpose of the region's result array: the logits. -/
theorem tail_v4 (c : Dev nD) :
    Pipeline.afterTail₀ cfgs (dats m) 0 (V0 m) [hostOps1] c main_v4 = res m c := by
  unfold Pipeline.afterTail₀
  show StableHlo.after hostOps1 _ (Proc.devRef .tc main_v4) = _
  after_results
  have e := (Pipeline.withArrays_arr spec0 launch0.win.arr_inj c (V0 m c) (fun w => (dats m 0 c).arrAt w cfg0.N) (5 : Fin 6)).trans
    (final5 m c)
  refine (congrArg (fun X : S47x50000.Idx → EReal => transpose S50000x47 [1, 0] X transposes_S47x50000_S50000x47_1_0) e).trans ?_
  funext i
  obtain ⟨r', c', rfl⟩ : ∃ (r' : Fin 50000) (c' : Fin 47), i = ix2 r' c' := ⟨i 0, i 1, eq_ix2 i⟩
  exact transpose_ix2_apply _ _ r' c'

/-- A run that ends with each array of the pipeline at what the proof data computes, and every other buffer at its contents
    after the host line that follows the region, ends with the result at the logits and the arguments as launched. -/
theorem run_value_of
    (h : θ_run defs (onTc (τ := τ) (main (F := Ideal))) (s₀ m ρ)
      (Pipeline.FramePost cfgs (dats m) 0 (Pipeline.afterTail₀ cfgs (dats m) 0 (V0 m) [hostOps1]))) :
    θ_run defs (onTc (τ := τ) (main (F := Ideal))) ⟨m, fun _ => 0, ρ⟩ (fun r => ∀ c : Dev nD,
      r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v4 (Pipeline.mem_restRefs_of main_v4 (by decide) (by decide))).trans (tail_v4 m c),
      ((h c).1 0).trans (((dats m 0 c).arrAt_in 0 rfl _).trans ((dats_A m c 0).trans (V_main_arg0 m c))),
      ((h c).1 1).trans (((dats m 0 c).arrAt_in 1 rfl _).trans ((dats_A m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩) h

/-- Every weakly fair execution of @main terminates with the result at the logits and the arguments as launched. -/
theorem run_value : θ_run defs (onTc (τ := τ) (main (F := Ideal))) ⟨m, fun _ => 0, ρ⟩ (fun r => ∀ c : Dev nD,
      r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_value_of m ρ (Cert.KernelIdeal.Frame.run_main m ρ)

end Cert.KernelIdeal.Value

end
-- ==== Proof.BDat.lean ====
/-
  The proof data of the one pipeline of `Cert.Kernel`, at any float instance.

  The features' row blocks are 13952 rows high over 50000 rows: the fourth block overhangs the array by 5808 rows, so
  its fetch fills only the staging buffer's first 8144 rows and the rest holds words nothing names. After the body
  a staging buffer of the features holds the block on the rows inside the array; the weights' and biases' buffers
  hold their whole arrays; and the result's buffer holds the body's value of those, which on the columns inside the
  result array (the features' rows inside the array) does not depend on the unnamed rows at the ideal instance.
-/
import proofs.«131517_g5540507811991_cont_9to1c4b_52_38_alg».proof.Proof.Gen.Kernel.Frame
import proofs.«131517_g5540507811991_cont_9to1c4b_52_38_alg».proof.Proof.Gen.Kernel.Skeleton

noncomputable section

namespace Cert.Kernel.Data

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- The features' block at point `t`, its part inside the array (13952 rows at three of the four points, 8144 at the
    point whose block is the last). -/
abbrev xpart (c : Dev nD) (t : Fin cfg0.N) : (win0_0.xblock (grid0.coords t)).Idx → Elt F .f32 := iblk m c 0 t

/-- That part filled out to a whole block with `d` below the array's end. -/
abbrev xfull (c : Dev nD) (t : Fin cfg0.N) (d : S13952x256.Idx → Elt F .f32) : S13952x256.Idx → Elt F .f32 :=
  win0_0.fill (grid0.coords t) d (xpart m c t)

/-- The filler the proof data names: the zero word. -/
abbrev zfill : S13952x256.Idx → Elt F .f32 := fun _ => Scalar.ofBits .f32 0#32

/-- What the body leaves in the result's staging buffer when the features' buffer held the block filled out with `d`. -/
abbrev outOf (c : Dev nD) (t : Fin cfg0.N) (d : S13952x256.Idx → Elt F .f32) : S47x13952.Idx → Elt F .f32 :=
  k0_pay1 (xfull m c t d) (iblk m c 1 t) (iblk m c 2 t) (iblk m c 3 t) (iblk m c 4 t)

/-- The proof data on device `c`'s TensorCore: the arrays as the region finds them; after the body the features'
    buffer at its block (zero below the array's end), the four whole-array operands' buffers at their arrays, the
    result's at the body's value of those; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t zfill
    | ⟨1, _⟩ => iblk m c 1 t
    | ⟨2, _⟩ => iblk m c 2 t
    | ⟨3, _⟩ => iblk m c 3 t
    | ⟨4, _⟩ => iblk m c 4 t
    | ⟨5, _⟩ => outOf m c t zfill
  Φ _ := Pipeline.ΦA spec0 c
  q _ := fullShare
  owed _ := 0

theorem dats_A (c : Dev nD) (w : Fin cfg0.W) : (dats m 0 c).A w = V m c (Pipeline.arrRef spec0 w) := rfl

/-- The features' buffer was just fetched at every point: the block on the rows inside the array, `d` below. -/
theorem before_0 (c : Dev nD) (t : Fin cfg0.N) (d) : (dats m 0 c).before (0 : Fin 6) t d = xfull m c t d := by
  unfold Dat.before; rw [if_pos (fetch0_0 t)]; rfl

/-- The whole-array operands' buffers hold their arrays at every point, fetched there or not. -/
theorem before_1 (c : Dev nD) (t : Fin cfg0.N) (d) : (dats m 0 c).before (1 : Fin 6) t d = iblk m c 1 t :=
  before0_1_of m (dats m 0 c) rfl (fun _ => rfl) t d
theorem before_2 (c : Dev nD) (t : Fin cfg0.N) (d) : (dats m 0 c).before (2 : Fin 6) t d = iblk m c 2 t :=
  before0_2_of m (dats m 0 c) rfl (fun _ => rfl) t d
theorem before_3 (c : Dev nD) (t : Fin cfg0.N) (d) : (dats m 0 c).before (3 : Fin 6) t d = iblk m c 3 t :=
  before0_3_of m (dats m 0 c) rfl (fun _ => rfl) t d
theorem before_4 (c : Dev nD) (t : Fin cfg0.N) (d) : (dats m 0 c).before (4 : Fin 6) t d = iblk m c 4 t :=
  before0_4_of m (dats m 0 c) rfl (fun _ => rfl) t d

/-- The result's window is never fetched, -/
theorem fetch_5 (t : Fin cfg0.N) : (cfg0.win (5 : Fin 6)).fetch t = false := by
  rcases fin_N0 t with rfl | rfl | rfl | rfl <;> decide +kernel

/-- so its buffer holds contents nothing names at every point: at the first, what the launch left; later, what the
    write-back of the point before left. -/
theorem before_5 (c : Dev nD) (t : Fin cfg0.N) (d) : (dats m 0 c).before (5 : Fin 6) t d = d := by
  unfold Dat.before
  rw [if_neg (by rw [fetch_5 t]; exact Bool.false_ne_true)]
  by_cases h0 : t.val = 0
  · rw [if_pos h0]
  · rw [if_neg h0]; exact if_pos (flush0_5 _)

end Cert.Kernel.Data

end
-- ==== Proof.BBody.lean ====
/-
  The kernel body's triple, at any float instance and at whichever staging buffers the pipeline hands it: five whole
  loads (the features' block, the two weight matrices, the two biases), a dead whole load of the result's buffer, and
  one whole store of the body's value of the five loads. The five operand buffers are left as found.

  The triple is proved once, for ANY six memrefs of the kernel's six types (`body_at`), and read at the staging
  buffers: nothing in it depends on which buffer a memref is. A memref owned at contents `X` is its elements held
  at the canonical contents of `X`; a load through the rectangle of the memref's own sizes at zero offsets reads
  `X` back (`readAt_rep_unit_zero`), and an unmasked store through that rectangle writes every element of the
  memref, so the memref ends held at the canonical contents of the payload (`pointsTo_write_unit_zero`).
-/
import proofs.«131517_g5540507811991_cont_9to1c4b_52_38_alg».proof.Proof.Gen.Kernel.Frame
import proofs.«131517_g5540507811991_cont_9to1c4b_52_38_alg».proof.Proof.Gen.Kernel.Skeleton
import Idealize.ShloMosaic.Lib.Pipeline.Kit
import Idealize.ShloMosaic.Lib.Pipeline.TableIdle
import Idealize.ShloMosaic.Lib.Tactic

noncomputable section

namespace Cert.Kernel.Body

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

/-- A load of the canonical contents at `x`, through the rectangle of the view's own sizes at zero offsets (however
    the zeros are spelt), reads `x`: that rectangle's index map is the identity. -/
theorem readAt_rep_unit_zero {κ : Kind} {sp : Space} {s : Shape} {e : EltTy} (v : View sig κ sp s e)
    {off : Fin s.rank → Nat} (h : off = fun _ => 0) (inb : ∀ a, off a + s.size a ≤ s.size a) (x : s.Idx → Elt F e) :
    v.readAt (Elt F) (Rect.unit off s.size inb).toLoadRect (v.rep x) = x := by
  subst h
  rw [View.readAt_rep]
  funext y
  show x ((Rect.whole s).emb y) = x y
  rw [Rect.emb_whole_apply]

/-- A memref held by its own elements and stored to, unmasked, through the rectangle of its own sizes at zero offsets
    is held at the canonical contents of the payload: every element of the memref is one the store wrote, so the
    memref reads the payload back, whatever it held before. -/
theorem pointsTo_write_unit_zero (c : Dev nD) {sp : Space} {s : Shape} {e : EltTy} (M : Memref sig .tc sp s e)
    (q : PosShare TreeShare) {off : Fin s.rank → Nat} (h : off = fun _ => 0) (inb : ∀ a, off a + s.size a ≤ s.size a)
    (g : M.view.ty.Contents (Elt F)) (w : s.Idx → Elt F e) :
    (M.view.loc (c : Thread nD τ) ↦[M.view.set]{q} (M.access (Rect.unit off s.size inb)).write (Elt F) g w Finset.univ : sProp 𝕄)
      ⊢ (M.view.loc (c : Thread nD τ) ↦[M.view.set]{q} M.view.rep w) := by
  subst h
  have hr : M.view.read (Elt F) ((M.access (Rect.unit (fun _ => 0) s.size inb)).write (Elt F) g w Finset.univ) = w := by
    funext y
    have e := View.read_slice_write_emb (v := M.view) (Rect.whole s) g w (M := Finset.univ) (x := y) (Finset.mem_univ _)
    rwa [Rect.emb_whole_apply] at e
  have key : (M.view.loc (c : Thread nD τ) ↦[M.view.set]{q} (M.access (Rect.unit (fun _ => 0) s.size inb)).write (Elt F) g w Finset.univ : sProp 𝕄)
      ⊢ owns (c : Thread nD τ) M q (M.view.read (Elt F) ((M.access (Rect.unit (fun _ => 0) s.size inb)).write (Elt F) g w Finset.univ)) :=
    owns_intro (c : Thread nD τ) M q _
  rw [hr, owns_eq_rep] at key
  exact key

/-- The kernel body on ANY six memrefs of its six types, owned at `X0` … `X5`: the five whole loads read `X0` …
    `X4`, the load of the sixth is dead, and the whole store leaves the sixth at the body's value of the five; the
    first five are handed back as found. -/
theorem body_at (c : Dev nD) (E : Set ℕ) (i : grid0.Coords)
    (M0 : Memref sig .tc .vmem S13952x256 .f32) (h0 : M0.IsWhole) (M1 : Memref sig .tc .vmem S256x256 .f32) (h1 : M1.IsWhole)
    (M2 : Memref sig .tc .vmem S1x256 .f32) (h2 : M2.IsWhole) (M3 : Memref sig .tc .vmem S47x256 .f32) (h3 : M3.IsWhole)
    (M4 : Memref sig .tc .vmem S47x1 .f32) (h4 : M4.IsWhole) (M5 : Memref sig .tc .vmem S47x13952 .f32) (h5 : M5.IsWhole)
    (X0 : S13952x256.Idx → Elt F .f32) (X1 : S256x256.Idx → Elt F .f32) (X2 : S1x256.Idx → Elt F .f32)
    (X3 : S47x256.Idx → Elt F .f32) (X4 : S47x1.Idx → Elt F .f32) (X5 : S47x13952.Idx → Elt F .f32) (K : PUnit → sProp 𝕄) :
    iprop((owns (c : Thread nD τ) M0 fullShare X0 ∗ owns (c : Thread nD τ) M1 fullShare X1
            ∗ owns (c : Thread nD τ) M2 fullShare X2 ∗ owns (c : Thread nD τ) M3 fullShare X3
            ∗ owns (c : Thread nD τ) M4 fullShare X4 ∗ owns (c : Thread nD τ) M5 fullShare X5)
          ∗ (iprop(owns (c : Thread nD τ) M0 fullShare X0 ∗ owns (c : Thread nD τ) M1 fullShare X1
                  ∗ owns (c : Thread nD τ) M2 fullShare X2 ∗ owns (c : Thread nD τ) M3 fullShare X3
                  ∗ owns (c : Thread nD τ) M4 fullShare X4
                  ∗ owns (c : Thread nD τ) M5 fullShare (k0_pay1 X0 X1 X2 X3 X4)) -∗ K ⟨⟩))
      ⊢ wp frame (wpE (defs₀ (F := F)) 𝒱₀ c none) E
          (cc0__mlp_kernel i M0 h0 M1 h1 M2 h2 M3 h3 M4 h4 M5 h5) K := by
  -- the kernel's constant-zero indices are the zero offsets
  have hz : (![0, 0] : Fin 2 → Nat) = fun _ => 0 := funext fun a => by fin_cases a <;> rfl
  -- what the five live loads read
  have e0 := readAt_rep_unit_zero (F := F) M0.view hz inb_S13952x256_S13952x256_0_0 X0
  have e1 := readAt_rep_unit_zero (F := F) M1.view hz inb_S256x256_S256x256_0_0 X1
  have e2 := readAt_rep_unit_zero (F := F) M2.view hz inb_S1x256_S1x256_0_0 X2
  have e3 := readAt_rep_unit_zero (F := F) M3.view hz inb_S47x256_S47x256_0_0 X3
  have e4 := readAt_rep_unit_zero (F := F) M4.view hz inb_S47x1_S47x1_0_0 X4
  -- each memref as its elements at canonical contents; the body as its six loads and one store over the payload
  simp only [owns_eq_rep, cc0__mlp_kernel_eq_skeleton]; unfold cc0__mlp_kernel_skel
  simp only [Prog.lift, Prog.bind_op, Prog.bind_ret]
  iintro ⟨⟨H0, H1, H2, H3, H4, H5⟩, Hk⟩
  sl_steps
  iapply Hk
  rw [e0, e1, e2, e3, e4]
  isplitl [H0]; · iexact H0
  isplitl [H1]; · iexact H1
  isplitl [H2]; · iexact H2
  isplitl [H3]; · iexact H3
  isplitl [H4]; · iexact H4
  iapply (pointsTo_write_unit_zero (F := F) c M5 fullShare hz inb_S47x13952_S47x13952_0_0 _ _)
  iexact H5

/-- The body's triple at the staging buffers the pipeline hands it: `body_at` at those six memrefs. -/
theorem sound_body (c : Dev nD) (E : Set ℕ) (i : grid0.Coords) (s0 : Fin 2) (s1 s2 s3 s4 : Fin 1) (s5 : Fin 2)
    (X0 : S13952x256.Idx → Elt F .f32) (X1 : S256x256.Idx → Elt F .f32) (X2 : S1x256.Idx → Elt F .f32)
    (X3 : S47x256.Idx → Elt F .f32) (X4 : S47x1.Idx → Elt F .f32) (X5 : S47x13952.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4 ∗ owns (c : Thread nD τ) (stage0_5 s5) fullShare X5)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare X3
                  ∗ owns (c : Thread nD τ) (stage0_4 s4) fullShare X4
                  ∗ owns (c : Thread nD τ) (stage0_5 s5) fullShare (k0_pay1 X0 X1 X2 X3 X4)) -∗ K ⟨⟩))
      ⊢ wp frame (wpE (defs₀ (F := F)) 𝒱₀ c none) E
          (cc0__mlp_kernel i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5)) K :=
  body_at c E i (stage0_0 s0) (hstage0_0 s0) (stage0_1 s1) (hstage0_1 s1) (stage0_2 s2) (hstage0_2 s2)
    (stage0_3 s3) (hstage0_3 s3) (stage0_4 s4) (hstage0_4 s4) (stage0_5 s5) (hstage0_5 s5) X0 X1 X2 X3 X4 X5 K

end Cert.Kernel.Body

end
-- ==== Proof.BFrame.lean ====
/-
  The frame of the word-level kernel. At the word level a matrix product is not read entry by entry: the result
  block is a function of the whole features' buffer, the words below the array's end included, so what the body
  leaves in the result's buffer is not named. The frame does not need it: the result's window is forgotten (handed
  to the body at any contents and taken back at any), the other five windows are stated as for the idealized kernel,
  and the run concludes that the two staged arguments hold their entry contents and every bypassing buffer the host
  line after the region does not write holds its own.
-/
import proofs.«131517_g5540507811991_cont_9to1c4b_52_38_alg».proof.Defs
import proofs.«131517_g5540507811991_cont_9to1c4b_52_38_alg».proof.Proof.Gen.Pre_finite_inputs
import proofs.«131517_g5540507811991_cont_9to1c4b_52_38_alg».proof.Proof.BDat
import proofs.«131517_g5540507811991_cont_9to1c4b_52_38_alg».proof.Proof.BBody
import Idealize.ShloMosaic.Lib.Pipeline.FrameSuffix

noncomputable section

namespace Cert.Kernel.Frame

open Cert.Kernel Cert.Kernel.Gen Cert.Kernel.Data Cert.Kernel.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is named: the result's alone. -/
abbrev fgt : Fin cfg0.W → Bool
  | ⟨0, _⟩ => false
  | ⟨1, _⟩ => false
  | ⟨2, _⟩ => false
  | ⟨3, _⟩ => false
  | ⟨4, _⟩ => false
  | ⟨5, _⟩ => true

theorem fgt_0 : fgt (0 : Fin 6) = false := rfl
theorem fgt_1 : fgt (1 : Fin 6) = false := rfl
theorem fgt_2 : fgt (2 : Fin 6) = false := rfl
theorem fgt_3 : fgt (3 : Fin 6) = false := rfl
theorem fgt_4 : fgt (4 : Fin 6) = false := rfl
theorem fgt_5 : fgt (5 : Fin 6) = true := rfl

/-- The body at a point: it finds the features' buffer at the block filled out below the array's end with some words
    `d0`, the four whole-array operands' buffers at their arrays, the result's buffer at anything; it leaves the five
    operand buffers as found, which for the features' window is its block on the rows inside the array (all its loose
    obligation states), and the result's buffer at some contents, of which nothing is asked. -/
theorem body_obligation (c : Dev nD) :
    BodyObligationLoose (dats m 0 c) (defs₀ (F := F)) 𝒱₀ () Set.univ fgt := fun t => by
  rw [bigSep_W0, bigSep_W0]
  simp only [fgt_0, fgt_1, fgt_2, fgt_3, fgt_4, fgt_5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%X5, H5⟩⟩
  rw [before_0 m c t d0, before_1 m c t d1, before_2 m c t d2, before_3 m c t d3, before_4 m c t d4]
  iapply (sound_body (F := F) c Set.univ (grid0.coords t) (cfg0.slots t 0) (cfg0.slots t 1) (cfg0.slots t 2)
    (cfg0.slots t 3) (cfg0.slots t 4) (cfg0.slots t 5)
    (xfull m c t d0) (iblk m c 1 t) (iblk m c 2 t) (iblk m c 3 t) (iblk m c 4 t) X5 _)
  isplitl [H0 H1 H2 H3 H4 H5]
  · isplitl [H0]
    · iexact H0
    isplitl [H1]
    · iexact H1
    isplitl [H2]
    · iexact H2
    isplitl [H3]
    · iexact H3
    isplitl [H4]
    · iexact H4
    · iexact H5
  iintro ⟨H0, H1, H2, H3, H4, H5⟩
  isplitl [HΦ]; · iexact HΦ
  isplitl [Ho]; · iexact Ho
  -- the features' window: the named filler cut away leaves the block's part inside the array, and filling that out
  -- with `d0` again is what the buffer holds
  have hx : win0_0.cut (grid0.coords t) (xfull m c t zfill) = xpart m c t := win0_0.cut_fill _ _ _
  isplitl [H0]
  · iexists d0
    change _ ⊢ owns (c : Thread nD τ) (stage0_0 (cfg0.slots t 0)) fullShare
      (win0_0.fill (grid0.coords t) d0 (win0_0.cut (grid0.coords t) (xfull m c t zfill)))
    rw [hx]
  isplitl [H1]
  · iexact H1
  isplitl [H2]
  · iexact H2
  isplitl [H3]
  · iexact H3
  isplitl [H4]
  · iexact H4
  · iexists _; iexact H5

/-- The buffers the host line after the region writes: the transposed result. -/
abbrev T : Finset (Ref sig .tc) := {main_v4}

/-- The one operation after the region writes `main_v4` only. -/
theorem sfx_writes : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl
  intro b hb
  simp only [StableHlo.unary_writes, Finset.mem_singleton] at hb
  exact Finset.mem_singleton.mpr (Proc.devRef_injective _ hb)

/-- Every weakly fair execution of @main terminates with each array of the pipeline at some contents its window's
    relation allows (an input's: its entry contents; the result's: anything) and every buffer that bypasses the region
    and is not written after it at its contents at the region's entry. -/
theorem run_main : θ_run defs (onTc (τ := τ) (main (F := F))) (s₀ m ρ)
    (Pipeline.RDat.FramePostR (cfgs 0) (fun c => (dats m 0 c).toRForget fgt) T (V m)) :=
  Pipeline.RDat.θ_run_frame_around_T cfgs (0 : Fin 1) launch0 defs₀ 𝒱₀ (fun c => (dats m 0 c).toRForget fgt) T m ρ main
    (hbody := fun c => (body_obligation m c).toRForget)
    (hshare := fun c => ((dats m 0 c).toRForget fgt).share_full fun _ => rfl) (howed := fun _ _ => rfl)
    (V₀ := V0 m) (opss := [hostOps1]) (hsub := sfx_sub) (hfresh := sfx_fresh) (hkeep := sfx_keeps) (hT := sfx_writes)
    (hmain := hmain m 𝒱₀) (hA := fun _ _ => rfl) (hΦ := fun _ _ => rfl)

end Run

/-- The arguments end as launched. -/
theorem frame : Cert.frame_Kernel := fun m ρ _ =>
  (θ_run defs _ _).mono (fun r h c =>
    ⟨(Pipeline.RDat.FramePostR.arr_in h c (0 : Fin 6) rfl).trans (V_main_arg0 m c),
      (Pipeline.RDat.FramePostR.arr_in h c (1 : Fin 6) rfl).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩)
    (run_main (F := Bits) m ρ)

end Cert.Kernel.Frame

end
-- ==== Proof.lean ====
/-
  A two-layer perceptron, `relu (x · W1 + b1) · W2 + b2` over 50000 rows of 256 features, 256 hidden units and 47
  classes. The kernel streams the features through both products in four row blocks of 13952 rows (the last one
  overhanging the array), holds the second weights transposed, writes the logits transposed block by block, and a
  host line transposes them back; the reference is the plain expression.

  Over the extended reals the two agree entry by entry: a change of float format is the identity, a matrix product is
  the sum of products over the contracted axis, and the only law between the two arrangements is that a product of two
  extended reals commutes (the transposed weights stand on the left in the kernel, on the right in the reference). No
  finiteness is used. The rows the last block reads below the array's end are never contracted over, so they reach only
  result columns the write-back drops.

  The frames: the reference's is its run with the result dropped; the idealized kernel's names every buffer, the
  features' and the result's windows on the part their transfers move; the word-level kernel's forgets the result's
  window, whose contents at the word level depend on the unnamed rows.
-/
import proofs.«131517_g5540507811991_cont_9to1c4b_52_38_alg».proof.Defs
import proofs.«131517_g5540507811991_cont_9to1c4b_52_38_alg».proof.Proof.Gen.Kernel
import proofs.«131517_g5540507811991_cont_9to1c4b_52_38_alg».proof.Proof.Gen.KernelIdeal
import proofs.«131517_g5540507811991_cont_9to1c4b_52_38_alg».proof.Proof.Gen.ReferenceIdeal
import proofs.«131517_g5540507811991_cont_9to1c4b_52_38_alg».proof.Proof.Gen.Pre_finite_inputs
import proofs.«131517_g5540507811991_cont_9to1c4b_52_38_alg».proof.Proof.Gen.ReferenceIdeal.Run
import proofs.«131517_g5540507811991_cont_9to1c4b_52_38_alg».proof.Proof.Gen.ReferenceIdeal.Read
import proofs.«131517_g5540507811991_cont_9to1c4b_52_38_alg».proof.Proof.RefValue
import proofs.«131517_g5540507811991_cont_9to1c4b_52_38_alg».proof.Proof.KFrame
import proofs.«131517_g5540507811991_cont_9to1c4b_52_38_alg».proof.Proof.KValue
import proofs.«131517_g5540507811991_cont_9to1c4b_52_38_alg».proof.Proof.BFrame
import Idealize.ShloMosaic.Adequacy
import Idealize.ShloMosaic.Init

noncomputable section

namespace Cert.Proof

open Idealize.ShloMosaic Idealize.ShloMosaic.TcCoe Idealize.SL.Sem

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the logits of the launch contents. -/
theorem algebraic : Cert.algebraic_KernelIdeal_ReferenceIdeal := by
  intro m ρ m' ρ' _ hagree
  refine ⟨fun c => Cert.KernelIdeal.Value.res m c, Cert.KernelIdeal.Value.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  Cert.Kernel.Frame.frame, Cert.KernelIdeal.Frame.frame, frame_ri, trivial, algebraic⟩

end Cert.Proof

end
